-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S50x1024 : S_.BroadcastsInDim S50x1024 (![] : Fin 0 → Fin S50x1024.rank)
  reducesTo_S50x1024_S_d0_1 : S50x1024.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S10x20 : S_.BroadcastsInDim S10x20 (![] : Fin 0 → Fin S10x20.rank)
  reducesTo_S10x20_S_d0_1 : S10x20.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S20 .f32) (main_arg12 : FVec F S20 .f32) (main_arg13 : FVec F S10x20 .f32) (main_arg14 : FVec F S10 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S10x20 .f32 := Host.absf main_arg13
  let main_cst_24 : FVec F S_ .f32 := constant S_ .f32 0x7F800000#32
  let main_v65 : FVec F S10x20 .f32 := broadcastInDim S10x20 ![] bcast_S_S10x20 main_cst_24
  let main_v66 : IVec S10x20 1 := cmpf .olt main_v64 main_v65
  let main_c_25 : IVec S_ 1 := constantI S_ 1 1#1
  let main_v67 : IVec S_ 1 := (fun x v => Host.reduce IntOp.andi x v reducesTo_S10x20_S_d0_1 h_S_) main_v66 main_c_25
  fn_part4 (F := F) main_arg14 main_v63 main_v67

def fn_part2 {F : FTy → Type} [FloatOps F] (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) (main_v33 : IVec S_ 1) : IVec S_ 1 :=
  let main_v34 : FVec F S20x50 .f32 := Host.absf main_arg7
  let main_cst_12 : FVec F S_ .f32 := constant S_ .f32 0x7F800000#32
  let main_v35 : FVec F S20x50 .f32 := broadcastInDim S20x50 ![] bcast_S_S20x50 main_cst_12
  let main_v36 : IVec S20x50 1 := cmpf .olt main_v34 main_v35
  let main_c_13 : IVec S_ 1 := constantI S_ 1 1#1
  let main_v37 : IVec S_ 1 := (fun x v => Host.reduce IntOp.andi x v reducesTo_S20x50_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20 .f32 := Host.absf main_arg9
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_arg13 main_arg14 main_v48 main_v49 main_v50

def fn_part1 {F : FTy → Type} [FloatOps F] (main_arg4 : FVec F S50 .f32) (main_arg5 : FVec F S50 .f32) (main_arg6 : FVec F S50 .f32) (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x1024 .f32) (main_arg1 : FVec F S50x1024 .f32) (main_arg2 : FVec F S50 .f32) (main_arg3 : FVec F S50 .f32) (main_arg4 : FVec F S50 .f32) (main_arg5 : FVec F S50 .f32) (main_arg6 : FVec F S50 .f32) (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S50x1024 .f32 := Host.absf main_arg1
  let main_cst_0 : FVec F S_ .f32 := constant S_ .f32 0x7F800000#32
  let main_v5 : FVec F S50x1024 .f32 := broadcastInDim S50x1024 ![] bcast_S_S50x1024 main_cst_0
  let main_v6 : IVec S50x1024 1 := cmpf .olt main_v4 main_v5
  let main_c_1 : IVec S_ 1 := constantI S_ 1 1#1
  let main_v7 : IVec S_ 1 := (fun x v => Host.reduce IntOp.andi x v reducesTo_S50x1024_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S1x50 : Shape := ⟨2, ![1, 50]⟩
abbrev S1x20 : Shape := ⟨2, ![1, 20]⟩
abbrev S1x10 : Shape := ⟨2, ![1, 10]⟩
abbrev S65536x10 : Shape := ⟨2, ![65536, 10]⟩
abbrev S2048x1024 : Shape := ⟨2, ![2048, 1024]⟩
abbrev S2048x10 : Shape := ⟨2, ![2048, 10]⟩
abbrev S2048x50 : Shape := ⟨2, ![2048, 50]⟩
abbrev S2048x20 : Shape := ⟨2, ![2048, 20]⟩
abbrev S2048 : Shape := ⟨1, ![2048]⟩
abbrev S2048x1 : Shape := ⟨2, ![2048, 1]⟩

abbrev nBuf : Space → Nat
  | .hbm => 27
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S50x1024, .f32⟩
  | .hbm, ⟨2, _⟩ => ⟨S50, .f32⟩
  | .hbm, ⟨3, _⟩ => ⟨S50, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S20x50, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20, .f32⟩
  | .hbm, ⟨12, _⟩ => ⟨S20, .f32⟩
  | .hbm, ⟨13, _⟩ => ⟨S10x20, .f32⟩
  | .hbm, ⟨14, _⟩ => ⟨S10, .f32⟩
  | .hbm, ⟨15, _⟩ => ⟨S1x50, .f32⟩
  | .hbm, ⟨16, _⟩ => ⟨S1x50, .f32⟩
  | .hbm, ⟨17, _⟩ => ⟨S1x50, .f32⟩
  | .hbm, ⟨18, _⟩ => ⟨S1x50, .f32⟩
  | .hbm, ⟨19, _⟩ => ⟨S1x50, .f32⟩
  | .hbm, ⟨20, _⟩ => ⟨S1x20, .f32⟩
  | .hbm, ⟨21, _⟩ => ⟨S1x20, .f32⟩
  | .hbm, ⟨22, _⟩ => ⟨S1x20, .f32⟩
  | .hbm, ⟨23, _⟩ => ⟨S1x20, .f32⟩
  | .hbm, ⟨24, _⟩ => ⟨S1x20, .f32⟩
  | .hbm, ⟨25, _⟩ => ⟨S1x10, .f32⟩
  | .hbm, ⟨26, _⟩ => ⟨S65536x10, .f32⟩
  | .local _ .vmem, ⟨0, _⟩ => ⟨S2048x1024, .f32⟩
  | .local _ .vmem, ⟨1, _⟩ => ⟨S2048x1024, .f32⟩
  | .local _ .vmem, ⟨2, _⟩ => ⟨S50x1024, .f32⟩
  | .local _ .vmem, ⟨3, _⟩ => ⟨S1x50, .f32⟩
  | .local _ .vmem, ⟨4, _⟩ => ⟨S1x50, .f32⟩
  | .local _ .vmem, ⟨5, _⟩ => ⟨S1x50, .f32⟩
  | .local _ .vmem, ⟨6, _⟩ => ⟨S1x50, .f32⟩
  | .local _ .vmem, ⟨7, _⟩ => ⟨S1x50, .f32⟩
  | .local _ .vmem, ⟨8, _⟩ => ⟨S20x50, .f32⟩
  | .local _ .vmem, ⟨9, _⟩ => ⟨S1x20, .f32⟩
  | .local _ .vmem, ⟨10, _⟩ => ⟨S1x20, .f32⟩
  | .local _ .vmem, ⟨11, _⟩ => ⟨S1x20, .f32⟩
  | .local _ .vmem, ⟨12, _⟩ => ⟨S1x20, .f32⟩
  | .local _ .vmem, ⟨13, _⟩ => ⟨S1x20, .f32⟩
  | .local _ .vmem, ⟨14, _⟩ => ⟨S10x20, .f32⟩
  | .local _ .vmem, ⟨15, _⟩ => ⟨S1x10, .f32⟩
  | .local _ .vmem, ⟨16, _⟩ => ⟨S2048x10, .f32⟩
  | .local _ .vmem, ⟨17, _⟩ => ⟨S2048x10, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S50_S1x50 : S50.ShapeCasts S1x50
  shapeCasts_S20_S1x20 : S20.ShapeCasts S1x20
  shapeCasts_S10_S1x10 : S10.ShapeCasts S1x10
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S50x1024_S50x1024_0_0 : ∀ a, (![0, 0] : Fin 2 → Nat) a + S50x1024.size a ≤ S50x1024.size a
  h_S50x1024 : 0 < S50x1024.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2048x50 : S1x50.Broadcasts S2048x50
  inb_S20x50_S20x50_0_0 : ∀ a, (![0, 0] : Fin 2 → Nat) a + S20x50.size a ≤ S20x50.size a
  h_S20x50 : 0 < S20x50.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  inb_S10x20_S10x20_0_0 : ∀ a, (![0, 0] : Fin 2 → Nat) a + S10x20.size a ≤ S10x20.size a
  h_S10x20 : 0 < S10x20.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x1024_S50x1024_S2048x50_1_1_0_0_n_n_wf : DotDims.WF S2048x1024 S50x1024 S2048x50 [1] [1] [0] [0] [] []
  dot_S2048x50_S20x50_S2048x20_1_1_0_0_n_n_wf : DotDims.WF S2048x50 S20x50 S2048x20 [1] [1] [0] [0] [] []
  dot_S2048x20_S10x20_S2048x10_1_1_0_0_n_n_wf : DotDims.WF S2048x20 S10x20 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x1024.size a ≤ S50x1024.size a
  hwx0_1 : ∀ i : grid0.Coords, EltTy.bits .f32 = 32 ∨ (Rect.block (s := S50x1024) S50x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x50.size a ≤ S1x50.size a
  hwx0_5 : ∀ i : grid0.Coords, EltTy.bits .f32 = 32 ∨ (Rect.block (s := S1x50) S1x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x50.size a ≤ S20x50.size a
  hwx0_7 : ∀ i : grid0.Coords, EltTy.bits .f32 = 32 ∨ (Rect.block (s := S20x50) S20x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x20.size a ≤ S1x20.size a
  hwx0_9 : ∀ i : grid0.Coords, EltTy.bits .f32 = 32 ∨ (Rect.block (s := S1x20) S1x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x20.size a ≤ S1x20.size a
  hwx0_10 : ∀ i : grid0.Coords, EltTy.bits .f32 = 32 ∨ (Rect.block (s := S1x20) S1x20.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x20.size a ≤ S1x20.size a
  hwx0_11 : ∀ i : grid0.Coords, EltTy.bits .f32 = 32 ∨ (Rect.block (s := S1x20) S1x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x20.size a ≤ S1x20.size a
  hwx0_12 : ∀ i : grid0.Coords, EltTy.bits .f32 = 32 ∨ (Rect.block (s := S1x20) S1x20.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x20.size a ≤ S10x20.size a
  hwx0_13 : ∀ i : grid0.Coords, EltTy.bits .f32 = 32 ∨ (Rect.block (s := S10x20) S10x20.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x10.size a ≤ S65536x10.size a
  hwx0_15 : ∀ i : grid0.Coords, EltTy.bits .f32 = 32 ∨ (Rect.block (s := S65536x10) S2048x10.size (cc0_transform_15 i) (hinb0_15 i)).WholeWords (EltTy.packing .f32)

variable [Facts₀]

def dot_S2048x1024_S50x1024_S2048x50_1_1_0_0_n_n : DotDims S2048x1024 S50x1024 S2048x50 where
  lhsContracting := [1]
  rhsContracting := [1]
  lhsNonContracting := [0]
  rhsNonContracting := [0]
  lhsBatch := []
  rhsBatch := []
  wf := dot_S2048x1024_S50x1024_S2048x50_1_1_0_0_n_n_wf
def dot_S2048x50_S20x50_S2048x20_1_1_0_0_n_n : DotDims S2048x50 S20x50 S2048x20 where
  lhsContracting := [1]
  rhsContracting := [1]
  lhsNonContracting := [0]
  rhsNonContracting := [0]
  lhsBatch := []
  rhsBatch := []
  wf := dot_S2048x50_S20x50_S2048x20_1_1_0_0_n_n_wf
def dot_S2048x20_S10x20_S2048x10_1_1_0_0_n_n : DotDims S2048x20 S10x20 S2048x10 where
  lhsContracting := [1]
  rhsContracting := [1]
  lhsNonContracting := [0]
  rhsNonContracting := [0]
  lhsBatch := []
  rhsBatch := []
  wf := dot_S2048x20_S10x20_S2048x10_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S20x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x20.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S10x20.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S2048x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S_ : Shape := ⟨0, ![]⟩
abbrev S1024x50 : Shape := ⟨2, ![1024, 50]⟩
abbrev S65536x50 : Shape := ⟨2, ![65536, 50]⟩
abbrev S1x50 : Shape := ⟨2, ![1, 50]⟩
abbrev S50x20 : Shape := ⟨2, ![50, 20]⟩
abbrev S65536x20 : Shape := ⟨2, ![65536, 20]⟩
abbrev S1x20 : Shape := ⟨2, ![1, 20]⟩
abbrev S20x10 : Shape := ⟨2, ![20, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 122
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S50x1024, .f32⟩
  | .hbm, ⟨2, _⟩ => ⟨S50, .f32⟩
  | .hbm, ⟨3, _⟩ => ⟨S50, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S20x50, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20, .f32⟩
  | .hbm, ⟨12, _⟩ => ⟨S20, .f32⟩
  | .hbm, ⟨13, _⟩ => ⟨S10x20, .f32⟩
  | .hbm, ⟨14, _⟩ => ⟨S10, .f32⟩
  | .hbm, ⟨15, _⟩ => ⟨S_, .f32⟩
  | .hbm, ⟨16, _⟩ => ⟨S50x1024, .f32⟩
  | .hbm, ⟨17, _⟩ => ⟨S50x1024, .i1⟩
  | .hbm, ⟨18, _⟩ => ⟨S_, .f32⟩
  | .hbm, ⟨19, _⟩ => ⟨S_, .f32⟩
  | .hbm, ⟨20, _⟩ => ⟨S50x1024, .f32⟩
  | .hbm, ⟨21, _⟩ => ⟨S50x1024, .f32⟩
  | .hbm, ⟨22, _⟩ => ⟨S50x1024, .f32⟩
  | .hbm, ⟨23, _⟩ => ⟨S50x1024, .f32⟩
  | .hbm, ⟨24, _⟩ => ⟨S1024x50, .f32⟩
  | .hbm, ⟨25, _⟩ => ⟨S65536x50, .f32⟩
  | .hbm, ⟨26, _⟩ => ⟨S1x50, .f32⟩
  | .hbm, ⟨27, _⟩ => ⟨S65536x50, .f32⟩
  | .hbm, ⟨28, _⟩ => ⟨S65536x50, .f32⟩
  | .hbm, ⟨29, _⟩ => ⟨S1x50, .f32⟩
  | .hbm, ⟨30, _⟩ => ⟨S65536x50, .f32⟩
  | .hbm, ⟨31, _⟩ => ⟨S65536x50, .f32⟩
  | .hbm, ⟨32, _⟩ => ⟨S1x50, .f32⟩
  | .hbm, ⟨33, _⟩ => ⟨S65536x50, .f32⟩
  | .hbm, ⟨34, _⟩ => ⟨S65536x50, .f32⟩
  | .hbm, ⟨35, _⟩ => ⟨S_, .f32⟩
  | .hbm, ⟨36, _⟩ => ⟨S50, .f32⟩
  | .hbm, ⟨37, _⟩ => ⟨S50, .f32⟩
  | .hbm, ⟨38, _⟩ => ⟨S50, .f32⟩
  | .hbm, ⟨39, _⟩ => ⟨S1x50, .f32⟩
  | .hbm, ⟨40, _⟩ => ⟨S65536x50, .f32⟩
  | .hbm, ⟨41, _⟩ => ⟨S65536x50, .f32⟩
  | .hbm, ⟨42, _⟩ => ⟨S1x50, .f32⟩
  | .hbm, ⟨43, _⟩ => ⟨S65536x50, .f32⟩
  | .hbm, ⟨44, _⟩ => ⟨S65536x50, .f32⟩
  | .hbm, ⟨45, _⟩ => ⟨S_, .f32⟩
  | .hbm, ⟨46, _⟩ => ⟨S65536x50, .f32⟩
  | .hbm, ⟨47, _⟩ => ⟨S65536x50, .i1⟩
  | .hbm, ⟨48, _⟩ => ⟨S_, .f32⟩
  | .hbm, ⟨49, _⟩ => ⟨S_, .f32⟩
  | .hbm, ⟨50, _⟩ => ⟨S65536x50, .f32⟩
  | .hbm, ⟨51, _⟩ => ⟨S65536x50, .f32⟩
  | .hbm, ⟨52, _⟩ => ⟨S65536x50, .f32⟩
  | .hbm, ⟨53, _⟩ => ⟨S65536x50, .f32⟩
  | .hbm, ⟨54, _⟩ => ⟨S_, .f32⟩
  | .hbm, ⟨55, _⟩ => ⟨S20x50, .f32⟩
  | .hbm, ⟨56, _⟩ => ⟨S20x50, .i1⟩
  | .hbm, ⟨57, _⟩ => ⟨S_, .f32⟩
  | .hbm, ⟨58, _⟩ => ⟨S_, .f32⟩
  | .hbm, ⟨59, _⟩ => ⟨S20x50, .f32⟩
  | .hbm, ⟨60, _⟩ => ⟨S20x50, .f32⟩
  | .hbm, ⟨61, _⟩ => ⟨S20x50, .f32⟩
  | .hbm, ⟨62, _⟩ => ⟨S20x50, .f32⟩
  | .hbm, ⟨63, _⟩ => ⟨S50x20, .f32⟩
  | .hbm, ⟨64, _⟩ => ⟨S65536x20, .f32⟩
  | .hbm, ⟨65, _⟩ => ⟨S1x20, .f32⟩
  | .hbm, ⟨66, _⟩ => ⟨S65536x20, .f32⟩
  | .hbm, ⟨67, _⟩ => ⟨S65536x20, .f32⟩
  | .hbm, ⟨68, _⟩ => ⟨S1x20, .f32⟩
  | .hbm, ⟨69, _⟩ => ⟨S65536x20, .f32⟩
  | .hbm, ⟨70, _⟩ => ⟨S65536x20, .f32⟩
  | .hbm, ⟨71, _⟩ => ⟨S1x20, .f32⟩
  | .hbm, ⟨72, _⟩ => ⟨S65536x20, .f32⟩
  | .hbm, ⟨73, _⟩ => ⟨S65536x20, .f32⟩
  | .hbm, ⟨74, _⟩ => ⟨S_, .f32⟩
  | .hbm, ⟨75, _⟩ => ⟨S20, .f32⟩
  | .hbm, ⟨76, _⟩ => ⟨S20, .f32⟩
  | .hbm, ⟨77, _⟩ => ⟨S20, .f32⟩
  | .hbm, ⟨78, _⟩ => ⟨S1x20, .f32⟩
  | .hbm, ⟨79, _⟩ => ⟨S65536x20, .f32⟩
  | .hbm, ⟨80, _⟩ => ⟨S65536x20, .f32⟩
  | .hbm, ⟨81, _⟩ => ⟨S1x20, .f32⟩
  | .hbm, ⟨82, _⟩ => ⟨S65536x20, .f32⟩
  | .hbm, ⟨83, _⟩ => ⟨S65536x20, .f32⟩
  | .hbm, ⟨84, _⟩ => ⟨S_, .f32⟩
  | .hbm, ⟨85, _⟩ => ⟨S65536x20, .f32⟩
  | .hbm, ⟨86, _⟩ => ⟨S65536x20, .i1⟩
  | .hbm, ⟨87, _⟩ => ⟨S_, .f32⟩
  | .hbm, ⟨88, _⟩ => ⟨S_, .f32⟩
  | .hbm, ⟨89, _⟩ => ⟨S65536x20, .f32⟩
  | .hbm, ⟨90, _⟩ => ⟨S65536x20, .f32⟩
  | .hbm, ⟨91, _⟩ => ⟨S65536x20, .f32⟩
  | .hbm, ⟨92, _⟩ => ⟨S65536x20, .f32⟩
  | .hbm, ⟨93, _⟩ => ⟨S_, .f32⟩
  | .hbm, ⟨94, _⟩ => ⟨S10x20, .f32⟩
  | .hbm, ⟨95, _⟩ => ⟨S10x20, .i1⟩
  | .hbm, ⟨96, _⟩ => ⟨S_, .f32⟩
  | .hbm, ⟨97, _⟩ => ⟨S_, .f32⟩
  | .hbm, ⟨98, _⟩ => ⟨S10x20, .f32⟩
  | .hbm, ⟨99, _⟩ => ⟨S10x20, .f32⟩
  | .hbm, ⟨100, _⟩ => ⟨S10x20, .f32⟩
  | .hbm, ⟨101, _⟩ => ⟨S10x20, .f32⟩
  | .hbm, ⟨102, _⟩ => ⟨S20x10, .f32⟩
  | .hbm, ⟨103, _⟩ => ⟨S65536x10, .f32⟩
  | .hbm, ⟨104, _⟩ => ⟨S1x10, .f32⟩
  | .hbm, ⟨105, _⟩ => ⟨S65536x10, .f32⟩
  | .hbm, ⟨106, _⟩ => ⟨S65536x10, .f32⟩
  | .hbm, ⟨107, _⟩ => ⟨S_, .f32⟩
  | .hbm, ⟨108, _⟩ => ⟨S65536, .f32⟩
  | .hbm, ⟨109, _⟩ => ⟨S_, .f32⟩
  | .hbm, ⟨110, _⟩ => ⟨S65536, .f32⟩
  | .hbm, ⟨111, _⟩ => ⟨S65536, .f32⟩
  | .hbm, ⟨112, _⟩ => ⟨S65536x1, .f32⟩
  | .hbm, ⟨113, _⟩ => ⟨S65536x10, .f32⟩
  | .hbm, ⟨114, _⟩ => ⟨S65536x10, .f32⟩
  | .hbm, ⟨115, _⟩ => ⟨S65536x10, .f32⟩
  | .hbm, ⟨116, _⟩ => ⟨S_, .f32⟩
  | .hbm, ⟨117, _⟩ => ⟨S65536, .f32⟩
  | .hbm, ⟨118, _⟩ => ⟨S65536x1, .f32⟩
  | .hbm, ⟨119, _⟩ => ⟨S65536x1, .f32⟩
  | .hbm, ⟨120, _⟩ => ⟨S65536x10, .f32⟩
  | .hbm, ⟨121, _⟩ => ⟨S65536x10, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_cst_12 : Ref sig .tc := ⟨.hbm, 88, rfl⟩
abbrev main_call3_v0 : Ref sig .tc := ⟨.hbm, 89, rfl⟩
abbrev main_call3_v1 : Ref sig .tc := ⟨.hbm, 90, rfl⟩
abbrev main_v54 : Ref sig .tc := ⟨.hbm, 91, rfl⟩
abbrev main_v55 : Ref sig .tc := ⟨.hbm, 92, rfl⟩
abbrev main_cst_13 : Ref sig .tc := ⟨.hbm, 93, rfl⟩
abbrev main_v56 : Ref sig .tc := ⟨.hbm, 94, rfl⟩
abbrev main_v57 : Ref sig .tc := ⟨.hbm, 95, rfl⟩
abbrev main_cst_14 : Ref sig .tc := ⟨.hbm, 96, rfl⟩
abbrev main_cst_15 : Ref sig .tc := ⟨.hbm, 97, rfl⟩
abbrev main_call4_v0 : Ref sig .tc := ⟨.hbm, 98, rfl⟩
abbrev main_call4_v1 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v65 : Ref sig .tc := ⟨.hbm, 121, rfl⟩

abbrev nD : Nat := 1
abbrev τ : Topo := Topo.v7x

variable {F : FTy → Type} [FloatOps F]

class Facts₀ : Prop where
  bcast_S_S50x1024 : S_.BroadcastsInDim S50x1024 (![] : Fin 0 → Fin S50x1024.rank)
  transposes_S50x1024_S1024x50_1_0 : S50x1024.Transposes [1, 0] S1024x50
  bcast_S50_S1x50_1 : S50.BroadcastsInDim S1x50 (![1] : Fin 1 → Fin S1x50.rank)
  bcast_S1x50_S65536x50_0_1 : S1x50.BroadcastsInDim S65536x50 (![0, 1] : Fin 2 → Fin S65536x50.rank)
  bcast_S_S50 : S_.BroadcastsInDim S50 (![] : Fin 0 → Fin S50.rank)
  bcast_S_S65536x50 : S_.BroadcastsInDim S65536x50 (![] : Fin 0 → Fin S65536x50.rank)
  bcast_S_S20x50 : S_.BroadcastsInDim S20x50 (![] : Fin 0 → Fin S20x50.rank)
  transposes_S20x50_S50x20_1_0 : S20x50.Transposes [1, 0] S50x20
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  bcast_S_S20 : S_.BroadcastsInDim S20 (![] : Fin 0 → Fin S20.rank)
  bcast_S_S65536x20 : S_.BroadcastsInDim S65536x20 (![] : Fin 0 → Fin S65536x20.rank)
  bcast_S_S10x20 : S_.BroadcastsInDim S10x20 (![] : Fin 0 → Fin S10x20.rank)
  transposes_S10x20_S20x10_1_0 : S10x20.Transposes [1, 0] S20x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x1024_S1024x50_S65536x50_1_0_0_1_n_n_wf : DotDims.WF S65536x1024 S1024x50 S65536x50 [1] [0] [0] [1] [] []
  dot_S65536x50_S50x20_S65536x20_1_0_0_1_n_n_wf : DotDims.WF S65536x50 S50x20 S65536x20 [1] [0] [0] [1] [] []
  dot_S65536x20_S20x10_S65536x10_1_0_0_1_n_n_wf : DotDims.WF S65536x20 S20x10 S65536x10 [1] [0] [0] [1] [] []

variable [Facts₀]

def dot_S65536x1024_S1024x50_S65536x50_1_0_0_1_n_n : DotDims S65536x1024 S1024x50 S65536x50 where
  lhsContracting := [1]
  rhsContracting := [0]
  lhsNonContracting := [0]
  rhsNonContracting := [1]
  lhsBatch := []
  rhsBatch := []
  wf := dot_S65536x1024_S1024x50_S65536x50_1_0_0_1_n_n_wf
def dot_S65536x50_S50x20_S65536x20_1_0_0_1_n_n : DotDims S65536x50 S50x20 S65536x20 where
  lhsContracting := [1]
  rhsContracting := [0]
  lhsNonContracting := [0]
  rhsNonContracting := [1]
  lhsBatch := []
  rhsBatch := []
  wf := dot_S65536x50_S50x20_S65536x20_1_0_0_1_n_n_wf
def dot_S65536x20_S20x10_S65536x10_1_0_0_1_n_n : DotDims S65536x20 S20x10 S65536x10 where
  lhsContracting := [1]
  rhsContracting := [0]
  lhsNonContracting := [0]
  rhsNonContracting := [1]
  lhsBatch := []
  rhsBatch := []
  wf := dot_S65536x20_S20x10_S65536x10_1_0_0_1_n_n_wf

class Facts : Prop extends Facts₀ where

variable [Facts]
-- ==== Proof.Spec.lean ====
/-
  The network both programs compute, as ONE function of the argument arrays over the extended reals.

  A row `u` of the input goes through two binarized blocks and a binarized output layer:
    * a binarized linear unit is the dot product of `u` with the SIGNS (±1, ties to +1) of a weight row, plus a bias;
    * a hidden unit is the sign of that value after batch normalisation with running statistics,
      `g · (h − μ) · (σ² + ε)^(−1/2) + β`;
    * the ten output units are binarized linear units of the second hidden layer, and the result is their
      log-softmax, `(z_j − max z) − log Σ_k exp (z_k − max z)`.
  Every float literal is kept as the extended real its f32 word denotes; the same words occur on both sides.
-/
import Idealize.ShloMosaic.PureOps.Ideal
import Idealize.ShloMosaic.Lib.ValueIdx

noncomputable section

namespace Cert.Bnn

open Idealize.ShloMosaic Idealize.ShloMosaic.ValueIdx

/-- The binarizing step: +1 where `0 ≤ a`, −1 elsewhere. -/
def sgn (a : EReal) : EReal :=
  Scalar.select (Ideal.cmp .oge a (Ideal.ofBits .f32 0x00000000#32))
    (Ideal.ofBits .f32 0x3F800000#32) (Ideal.ofBits .f32 0xBF800000#32)

/-- A binarized linear unit: `Σ_k u_k · sgn w_k + b`. -/
def lin {K : Nat} (u w : Fin K → EReal) (b : EReal) : EReal :=
  (∑ k : Fin K, u k * sgn (w k)) + b

/-- Batch normalisation at inference: `g · (h − μ) · (σ² + ε)^(−1/2) + β`, ε the f32 nearest 1e-4. -/
def bn (g be mu var h : EReal) : EReal :=
  g * (h - mu) * Ideal.rsqrt (var + Ideal.ofBits .f32 0x38D1B717#32) + be

/-- One hidden unit: the sign of the normalised binarized linear unit. -/
def hid {K : Nat} (u w : Fin K → EReal) (b g be mu var : EReal) : EReal :=
  sgn (bn g be mu var (lin u w b))

/-- A hidden layer of `H` units over a row of `K` inputs. -/
def layer {K H : Nat} (u : Fin K → EReal) (w : Fin H → Fin K → EReal) (b g be mu var : Fin H → EReal) :
    Fin H → EReal :=
  fun j => hid u (w j) (b j) (g j) (be j) (mu j) (var j)

/-- The output layer's logits. -/
def logits {K O : Nat} (u : Fin K → EReal) (w : Fin O → Fin K → EReal) (b : Fin O → EReal) : Fin O → EReal :=
  fun q => lin u (w q) (b q)

/-- A row's maximum, folded from −∞. -/
def rowMax {n : Nat} (z : Fin n → EReal) : EReal :=
  (Finset.univ : Finset (Fin n)).fold max (Ideal.ofBits .f32 0xFF800000#32) z

/-- The log-softmax of a row, shifted by its maximum. -/
def logSoftmax {n : Nat} (z : Fin n → EReal) (j : Fin n) : EReal :=
  (z j - rowMax z) - Ideal.log (∑ k : Fin n, Ideal.exp (z k - rowMax z))

/-- The whole network on one input row. -/
def net (u : Fin 1024 → EReal)
    (w1 : Fin 50 → Fin 1024 → EReal) (b1 g1 be1 m1 v1 : Fin 50 → EReal)
    (w2 : Fin 20 → Fin 50 → EReal) (b2 g2 be2 m2 v2 : Fin 20 → EReal)
    (w5 : Fin 10 → Fin 20 → EReal) (b5 : Fin 10 → EReal) : Fin 10 → EReal :=
  logSoftmax (logits (layer (layer u w1 b1 g1 be1 m1 v1) w2 b2 g2 be2 m2 v2) w5 b5)

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- A matrix by its two coordinates. -/
abbrev mat {a b : Nat} (X : A2 a b) : Fin a → Fin b → EReal := fun i k => X (ix2 i k)
/-- A vector by its coordinate. -/
abbrev vec {a : Nat} (X : A1 a) : Fin a → EReal := fun i => X (ix1 i)

/-- THE RESULT ARRAY: entry `(r, q)` is output `q` of the network on row `r` of `x`. -/
def G (x : A2 65536 1024) (w1 : A2 50 1024) (b1 g1 be1 m1 v1 : A1 50)
    (w2 : A2 20 50) (b2 g2 be2 m2 v2 : A1 20) (w5 : A2 10 20) (b5 : A1 10) : A2 65536 10 :=
  fun i => net (mat x (i 0)) (mat w1) (vec b1) (vec g1) (vec be1) (vec m1) (vec v1)
    (mat w2) (vec b2) (vec g2) (vec be2) (vec m2) (vec v2) (mat w5) (vec b5) (i 1)

end Cert.Bnn

end
-- ==== Proof.Consts.lean ====
/-
  The float constants the two programs spell, as the extended reals their bit patterns denote in exact arithmetic:
  the f32 words of 0, 1, -1 and -∞, and the bf16 words of 1 and -1 (the kernel binarizes its weights to bf16 ±1,
  the reference to f32 ±1: the same two numbers).
-/
import Idealize.ShloMosaic.PureOps.Ideal
import Idealize.ShloMosaic.PureOps.Ideal.Laws

noncomputable section

namespace Cert.Bnn.Consts

open Idealize.ShloMosaic

/-- The f32 word of 1.0 denotes 1. -/
theorem f32_one : Ideal.ofBits .f32 0x3F800000#32 = 1 := by
  simp [Ideal.ofBits, Ideal.ieee, -EReal.coe_mul]; norm_num

/-- The f32 word of -1.0 denotes -1. -/
theorem f32_neg_one : Ideal.ofBits .f32 0xBF800000#32 = -1 := by
  simp [Ideal.ofBits, Ideal.ieee, -EReal.coe_mul]; norm_num

/-- The bf16 word of 1.0 denotes 1. -/
theorem bf16_one : Ideal.ofBits .bf16 0x3F80#16 = 1 := by
  simp [Ideal.ofBits, Ideal.ieee, -EReal.coe_mul]; norm_num

/-- The bf16 word of -1.0 denotes -1. -/
theorem bf16_neg_one : Ideal.ofBits .bf16 0xBF80#16 = -1 := by
  simp [Ideal.ofBits, Ideal.ieee, -EReal.coe_mul]; norm_num

/-- The f32 word of -∞ denotes the bottom of the extended reals. -/
theorem f32_neg_inf : Ideal.ofBits .f32 0xFF800000#32 = ⊥ := by
  simp [Ideal.ofBits, Ideal.ieee]

/-- So the bf16 and the f32 spellings of +1 are one number, -/
theorem bf16_one_eq : Ideal.ofBits .bf16 0x3F80#16 = Ideal.ofBits .f32 0x3F800000#32 := by
  rw [bf16_one, f32_one]

/-- and likewise of -1. -/
theorem bf16_neg_one_eq : Ideal.ofBits .bf16 0xBF80#16 = Ideal.ofBits .f32 0xBF800000#32 := by
  rw [bf16_neg_one, f32_neg_one]

end Cert.Bnn.Consts

end
-- ==== Proof.LibRowOps.lean ====
/-
  General lemmas about a matrix taken row by row, read at an index (nothing here names a program):
    * a vector `[a]` cast to a column `[a, 1]`, and a column `[a, 1]` broadcast over `b` columns (the two "keepdims" moves);
    * a reduction of a matrix `[a, b]` along axis 1 at row `p`, as a fold or a sum over the row's entries `(p, k)`:
      the vector unit's `multi_reduction` with a maximum and with a sum, and the host's `reduce` with a maximum body;
    * the maximum folded from −∞ is absorbed by a further maximum with −∞.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibRowOps

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a reduction along axis 1, with the column `k` put back, is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A `vector.multi_reduction <maximumf>` along axis 1, at row `p`: the fold of `max` from the accumulator's value over the
    row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => congrArg src (lift_row h p k))

/-- A `vector.multi_reduction <add>` along axis 1, at row `p`: the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The host's one-operand `reduce` with a maximum body along axis 1, at row `p`: the fold of `max` from the initial
    value over the row's entries. -/
theorem hostReduce_maximumf_row {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  exact congrArg (fun f => Finset.fold max (init (Shape.Idx.first hu)) f (Finset.univ : Finset (Fin b)))
    (funext fun k => congrArg x (lift_row h p k))

/-- A maximum folded from the bottom of the extended reals is not changed by a further maximum with the bottom. -/
theorem max_bot_fold {n : ℕ} (z : Fin n → EReal) :
    max (⊥ : EReal) ((Finset.univ : Finset (Fin n)).fold max ⊥ z) = (Finset.univ : Finset (Fin n)).fold max ⊥ z :=
  max_eq_right bot_le

end Cert.LibRowOps

end
-- ==== Proof.RefValue.lean ====
/-
  The reference program's result, read entry by entry over the extended reals.

  The reference binarizes each weight matrix, transposes it, and multiplies: entry `(r, j)` of `x · sgn(w)ᵀ` is
  `Σ_k x(r, k) · sgn w(j, k)`. A parameter vector is laid along the rows by two broadcasts, so at `(r, j)` it reads its
  entry `j`. Batch normalisation and the sign step are pointwise. The log-softmax takes the row maximum (folded from −∞,
  then once more bounded below by −∞, which changes nothing), subtracts it, and subtracts the logarithm of the row sum of
  exponentials (a host sum from the initial value 0). So the result array is `Cert.Bnn.G` of the arguments.
-/
import proofs.«114342_j47201690583462_1_alg».proof.Proof.RefRead
import proofs.«114342_j47201690583462_1_alg».proof.Proof.Spec
import proofs.«114342_j47201690583462_1_alg».proof.Proof.Consts
import proofs.«114342_j47201690583462_1_alg».proof.Proof.LibRowOps
import Idealize.ShloMosaic.Lib.ValueIdx
import Idealize.ShloMosaic.PureOps.Ideal.Laws

noncomputable section

namespace Cert.ReferenceIdeal.RefValue

open Cert.ReferenceIdeal Cert.ReferenceIdeal.ReadP Idealize.ShloMosaic Idealize.ShloMosaic.ValueIdx Cert.LibRowOps
open Cert.Bnn (mat vec)

/-! ### Parameter vectors laid along the rows -/

theorem par_b1 (x : (⟨S50, .f32⟩ : BufTy).Contents (Elt Ideal)) (r : Fin 65536) (j : Fin 50) :
    val_main_v7 (F := Ideal) x (ix2 r j) = x (ix1 j) := by
  rw [val_main_v7_apply, val_main_v6_apply]
  exact congrArg x (funext fun a => Fin.ext (by match a with | ⟨0, _⟩ => rfl))

theorem par_m1 (x : (⟨S50, .f32⟩ : BufTy).Contents (Elt Ideal)) (r : Fin 65536) (j : Fin 50) :
    val_main_v10 (F := Ideal) x (ix2 r j) = x (ix1 j) := by
  rw [val_main_v10_apply, val_main_v9_apply]
  exact congrArg x (funext fun a => Fin.ext (by match a with | ⟨0, _⟩ => rfl))

theorem par_g1 (x : (⟨S50, .f32⟩ : BufTy).Contents (Elt Ideal)) (r : Fin 65536) (j : Fin 50) :
    val_main_v13 (F := Ideal) x (ix2 r j) = x (ix1 j) := by
  rw [val_main_v13_apply, val_main_v12_apply]
  exact congrArg x (funext fun a => Fin.ext (by match a with | ⟨0, _⟩ => rfl))

theorem par_s1 (x : (⟨S50, .f32⟩ : BufTy).Contents (Elt Ideal)) (r : Fin 65536) (j : Fin 50) :
    val_main_v19 (F := Ideal) x (ix2 r j) = Ideal.rsqrt (x (ix1 j) + Ideal.ofBits .f32 0x38D1B717#32) := by
  rw [val_main_v19_apply, val_main_v18_apply, val_main_v17_apply, val_main_v16_apply, val_main_v15_apply,
    val_main_cst_2_apply]
  have e : idx_main_v18 (idx_main_v19 (ix2 r j)) = ix1 j :=
    funext fun a => Fin.ext (by match a with | ⟨0, _⟩ => rfl)
  rw [e]; rfl

theorem par_be1 (x : (⟨S50, .f32⟩ : BufTy).Contents (Elt Ideal)) (r : Fin 65536) (j : Fin 50) :
    val_main_v22 (F := Ideal) x (ix2 r j) = x (ix1 j) := by
  rw [val_main_v22_apply, val_main_v21_apply]
  exact congrArg x (funext fun a => Fin.ext (by match a with | ⟨0, _⟩ => rfl))

theorem par_b2 (x : (⟨S20, .f32⟩ : BufTy).Contents (Elt Ideal)) (r : Fin 65536) (j : Fin 20) :
    val_main_v35 (F := Ideal) x (ix2 r j) = x (ix1 j) := by
  rw [val_main_v35_apply, val_main_v34_apply]
  exact congrArg x (funext fun a => Fin.ext (by match a with | ⟨0, _⟩ => rfl))

theorem par_m2 (x : (⟨S20, .f32⟩ : BufTy).Contents (Elt Ideal)) (r : Fin 65536) (j : Fin 20) :
    val_main_v38 (F := Ideal) x (ix2 r j) = x (ix1 j) := by
  rw [val_main_v38_apply, val_main_v37_apply]
  exact congrArg x (funext fun a => Fin.ext (by match a with | ⟨0, _⟩ => rfl))

theorem par_g2 (x : (⟨S20, .f32⟩ : BufTy).Contents (Elt Ideal)) (r : Fin 65536) (j : Fin 20) :
    val_main_v41 (F := Ideal) x (ix2 r j) = x (ix1 j) := by
  rw [val_main_v41_apply, val_main_v40_apply]
  exact congrArg x (funext fun a => Fin.ext (by match a with | ⟨0, _⟩ => rfl))

theorem par_s2 (x : (⟨S20, .f32⟩ : BufTy).Contents (Elt Ideal)) (r : Fin 65536) (j : Fin 20) :
    val_main_v47 (F := Ideal) x (ix2 r j) = Ideal.rsqrt (x (ix1 j) + Ideal.ofBits .f32 0x38D1B717#32) := by
  rw [val_main_v47_apply, val_main_v46_apply, val_main_v45_apply, val_main_v44_apply, val_main_v43_apply,
    val_main_cst_9_apply]
  have e : idx_main_v46 (idx_main_v47 (ix2 r j)) = ix1 j :=
    funext fun a => Fin.ext (by match a with | ⟨0, _⟩ => rfl)
  rw [e]; rfl

theorem par_be2 (x : (⟨S20, .f32⟩ : BufTy).Contents (Elt Ideal)) (r : Fin 65536) (j : Fin 20) :
    val_main_v50 (F := Ideal) x (ix2 r j) = x (ix1 j) := by
  rw [val_main_v50_apply, val_main_v49_apply]
  exact congrArg x (funext fun a => Fin.ext (by match a with | ⟨0, _⟩ => rfl))

theorem par_b5 (x : (⟨S10, .f32⟩ : BufTy).Contents (Elt Ideal)) (r : Fin 65536) (j : Fin 10) :
    val_main_v63 (F := Ideal) x (ix2 r j) = x (ix1 j) := by
  rw [val_main_v63_apply, val_main_v62_apply]
  exact congrArg x (funext fun a => Fin.ext (by match a with | ⟨0, _⟩ => rfl))

/-! ### The binarized, transposed weights -/

/-- The transposed binarized weights read at `(k, j)`: the sign of weight `(j, k)`. -/
theorem sgn_w1 (x : (⟨S50x1024, .f32⟩ : BufTy).Contents (Elt Ideal)) (k : Fin 1024) (j : Fin 50) :
    val_main_v4 (F := Ideal) x (ix2 k j) = Cert.Bnn.sgn (x (ix2 j k)) := by
  rw [val_main_v4_apply, val_main_v3_apply, val_main_v2_apply, val_main_v1_apply, val_main_v0_apply,
    val_main_cst_apply, val_main_call0_v0_apply, val_main_cst_0_apply, val_main_call0_v1_apply, val_main_cst_1_apply]
  have e : idx_main_v4 (ix2 k j) = ix2 j k :=
    funext fun a => Fin.ext (by match a with | ⟨0, _⟩ => rfl | ⟨1, _⟩ => rfl)
  rw [e]; rfl

/-- The transposed binarized weights read at `(k, j)`: the sign of weight `(j, k)`. -/
theorem sgn_w2 (x : (⟨S20x50, .f32⟩ : BufTy).Contents (Elt Ideal)) (k : Fin 50) (j : Fin 20) :
    val_main_v32 (F := Ideal) x (ix2 k j) = Cert.Bnn.sgn (x (ix2 j k)) := by
  rw [val_main_v32_apply, val_main_v31_apply, val_main_v30_apply, val_main_v29_apply, val_main_v28_apply,
    val_main_cst_6_apply, val_main_call2_v0_apply, val_main_cst_7_apply, val_main_call2_v1_apply, val_main_cst_8_apply]
  have e : idx_main_v32 (ix2 k j) = ix2 j k :=
    funext fun a => Fin.ext (by match a with | ⟨0, _⟩ => rfl | ⟨1, _⟩ => rfl)
  rw [e]; rfl

/-- The transposed binarized weights read at `(k, j)`: the sign of weight `(j, k)`. -/
theorem sgn_w5 (x : (⟨S10x20, .f32⟩ : BufTy).Contents (Elt Ideal)) (k : Fin 20) (j : Fin 10) :
    val_main_v60 (F := Ideal) x (ix2 k j) = Cert.Bnn.sgn (x (ix2 j k)) := by
  rw [val_main_v60_apply, val_main_v59_apply, val_main_v58_apply, val_main_v57_apply, val_main_v56_apply,
    val_main_cst_13_apply, val_main_call4_v0_apply, val_main_cst_14_apply, val_main_call4_v1_apply, val_main_cst_15_apply]
  have e : idx_main_v60 (ix2 k j) = ix2 j k :=
    funext fun a => Fin.ext (by match a with | ⟨0, _⟩ => rfl | ⟨1, _⟩ => rfl)
  rw [e]; rfl

/-! ### The three layers -/

/-- FIRST LAYER at `(r, j)`: hidden unit `j` on row `r` of `x`. -/
theorem layer1 (x0 : (⟨S65536x1024, .f32⟩ : BufTy).Contents (Elt Ideal)) (x1 : (⟨S50x1024, .f32⟩ : BufTy).Contents (Elt Ideal)) (x2 : (⟨S50, .f32⟩ : BufTy).Contents (Elt Ideal)) (x3 : (⟨S50, .f32⟩ : BufTy).Contents (Elt Ideal)) (x4 : (⟨S50, .f32⟩ : BufTy).Contents (Elt Ideal)) (x5 : (⟨S50, .f32⟩ : BufTy).Contents (Elt Ideal)) (x6 : (⟨S50, .f32⟩ : BufTy).Contents (Elt Ideal)) (r : Fin 65536) (j : Fin 50) :
    val_main_v27 (F := Ideal) x0 x1 x2 x3 x4 x5 x6 (ix2 r j)
      = Cert.Bnn.layer (mat x0 r) (mat x1) (vec x2) (vec x3) (vec x4) (vec x5) (vec x6) j := by
  rw [val_main_v27_apply, val_main_v26_apply, val_main_v25_apply, val_main_call1_v0_apply, val_main_cst_4_apply,
    val_main_call1_v1_apply, val_main_cst_5_apply, val_main_v24_apply, val_main_cst_3_apply,
    val_main_v23_apply, val_main_v20_apply, val_main_v14_apply, val_main_v11_apply, val_main_v8_apply, val_main_v5_apply,
    par_b1, par_m1, par_g1, par_s1, par_be1]
  have es : (∑ k : Fin 1024, x0 (lidx_main_v5 (ix2 r j) k) * val_main_v4 (F := Ideal) x1 (ridx_main_v5 (ix2 r j) k))
      = ∑ k : Fin 1024, x0 (ix2 r k) * Cert.Bnn.sgn (x1 (ix2 j k)) :=
    Finset.sum_congr rfl fun k _ => by
      have el : lidx_main_v5 (ix2 r j) k = ix2 r k :=
        funext fun a => Fin.ext (by match a with | ⟨0, _⟩ => rfl | ⟨1, _⟩ => rfl)
      have er : ridx_main_v5 (ix2 r j) k = ix2 k j :=
        funext fun a => Fin.ext (by match a with | ⟨0, _⟩ => rfl | ⟨1, _⟩ => rfl)
      rw [el, er, sgn_w1]
  rw [es]
  rfl

/-- SECOND LAYER at `(r, j)`: hidden unit `j` over the first layer's values on row `r`. -/
theorem layer2 (x0 : (⟨S65536x1024, .f32⟩ : BufTy).Contents (Elt Ideal)) (x1 : (⟨S50x1024, .f32⟩ : BufTy).Contents (Elt Ideal)) (x2 : (⟨S50, .f32⟩ : BufTy).Contents (Elt Ideal)) (x3 : (⟨S50, .f32⟩ : BufTy).Contents (Elt Ideal)) (x4 : (⟨S50, .f32⟩ : BufTy).Contents (Elt Ideal)) (x5 : (⟨S50, .f32⟩ : BufTy).Contents (Elt Ideal)) (x6 : (⟨S50, .f32⟩ : BufTy).Contents (Elt Ideal)) (x7 : (⟨S20x50, .f32⟩ : BufTy).Contents (Elt Ideal)) (x8 : (⟨S20, .f32⟩ : BufTy).Contents (Elt Ideal)) (x9 : (⟨S20, .f32⟩ : BufTy).Contents (Elt Ideal)) (x10 : (⟨S20, .f32⟩ : BufTy).Contents (Elt Ideal)) (x11 : (⟨S20, .f32⟩ : BufTy).Contents (Elt Ideal)) (x12 : (⟨S20, .f32⟩ : BufTy).Contents (Elt Ideal)) (r : Fin 65536) (j : Fin 20) :
    val_main_v55 (F := Ideal) x0 x1 x2 x3 x4 x5 x6 x7 x8 x9 x10 x11 x12 (ix2 r j)
      = Cert.Bnn.layer (Cert.Bnn.layer (mat x0 r) (mat x1) (vec x2) (vec x3) (vec x4) (vec x5) (vec x6))
          (mat x7) (vec x8) (vec x9) (vec x10) (vec x11) (vec x12) j := by
  rw [val_main_v55_apply, val_main_v54_apply, val_main_v53_apply, val_main_call3_v0_apply, val_main_cst_11_apply,
    val_main_call3_v1_apply, val_main_cst_12_apply, val_main_v52_apply, val_main_cst_10_apply,
    val_main_v51_apply, val_main_v48_apply, val_main_v42_apply, val_main_v39_apply, val_main_v36_apply, val_main_v33_apply,
    par_b2, par_m2, par_g2, par_s2, par_be2]
  have es : (∑ k : Fin 50, val_main_v27 (F := Ideal) x0 x1 x2 x3 x4 x5 x6 (lidx_main_v33 (ix2 r j) k)
        * val_main_v32 (F := Ideal) x7 (ridx_main_v33 (ix2 r j) k))
      = ∑ k : Fin 50, Cert.Bnn.layer (mat x0 r) (mat x1) (vec x2) (vec x3) (vec x4) (vec x5) (vec x6) k
          * Cert.Bnn.sgn (x7 (ix2 j k)) :=
    Finset.sum_congr rfl fun k _ => by
      have el : lidx_main_v33 (ix2 r j) k = ix2 r k :=
        funext fun a => Fin.ext (by match a with | ⟨0, _⟩ => rfl | ⟨1, _⟩ => rfl)
      have er : ridx_main_v33 (ix2 r j) k = ix2 k j :=
        funext fun a => Fin.ext (by match a with | ⟨0, _⟩ => rfl | ⟨1, _⟩ => rfl)
      rw [el, er, sgn_w2, layer1]
  rw [es]
  rfl

/-- THE LOGITS at `(r, q)`: output unit `q` over the second layer's values on row `r`. -/
theorem logits3 (x0 : (⟨S65536x1024, .f32⟩ : BufTy).Contents (Elt Ideal)) (x1 : (⟨S50x1024, .f32⟩ : BufTy).Contents (Elt Ideal)) (x2 : (⟨S50, .f32⟩ : BufTy).Contents (Elt Ideal)) (x3 : (⟨S50, .f32⟩ : BufTy).Contents (Elt Ideal)) (x4 : (⟨S50, .f32⟩ : BufTy).Contents (Elt Ideal)) (x5 : (⟨S50, .f32⟩ : BufTy).Contents (Elt Ideal)) (x6 : (⟨S50, .f32⟩ : BufTy).Contents (Elt Ideal)) (x7 : (⟨S20x50, .f32⟩ : BufTy).Contents (Elt Ideal)) (x8 : (⟨S20, .f32⟩ : BufTy).Contents (Elt Ideal)) (x9 : (⟨S20, .f32⟩ : BufTy).Contents (Elt Ideal)) (x10 : (⟨S20, .f32⟩ : BufTy).Contents (Elt Ideal)) (x11 : (⟨S20, .f32⟩ : BufTy).Contents (Elt Ideal)) (x12 : (⟨S20, .f32⟩ : BufTy).Contents (Elt Ideal)) (x13 : (⟨S10x20, .f32⟩ : BufTy).Contents (Elt Ideal)) (x14 : (⟨S10, .f32⟩ : BufTy).Contents (Elt Ideal)) (r : Fin 65536) (q : Fin 10) :
    val_main_v64 (F := Ideal) x0 x1 x2 x3 x4 x5 x6 x7 x8 x9 x10 x11 x12 x13 x14 (ix2 r q)
      = Cert.Bnn.logits (Cert.Bnn.layer (Cert.Bnn.layer (mat x0 r) (mat x1) (vec x2) (vec x3) (vec x4) (vec x5) (vec x6))
          (mat x7) (vec x8) (vec x9) (vec x10) (vec x11) (vec x12)) (mat x13) (vec x14) q := by
  rw [val_main_v64_apply, val_main_v61_apply, par_b5]
  have es : (∑ k : Fin 20, val_main_v55 (F := Ideal) x0 x1 x2 x3 x4 x5 x6 x7 x8 x9 x10 x11 x12 (lidx_main_v61 (ix2 r q) k)
        * val_main_v60 (F := Ideal) x13 (ridx_main_v61 (ix2 r q) k))
      = ∑ k : Fin 20, Cert.Bnn.layer (Cert.Bnn.layer (mat x0 r) (mat x1) (vec x2) (vec x3) (vec x4) (vec x5) (vec x6))
          (mat x7) (vec x8) (vec x9) (vec x10) (vec x11) (vec x12) k * Cert.Bnn.sgn (x13 (ix2 q k)) :=
    Finset.sum_congr rfl fun k _ => by
      have el : lidx_main_v61 (ix2 r q) k = ix2 r k :=
        funext fun a => Fin.ext (by match a with | ⟨0, _⟩ => rfl | ⟨1, _⟩ => rfl)
      have er : ridx_main_v61 (ix2 r q) k = ix2 k q :=
        funext fun a => Fin.ext (by match a with | ⟨0, _⟩ => rfl | ⟨1, _⟩ => rfl)
      rw [el, er, sgn_w5, layer2]
  rw [es]
  rfl

end Cert.ReferenceIdeal.RefValue

end
-- ==== Proof.RefOut.lean ====
/-
  The reference's closing log-softmax, read at `(r, q)`, and the reference's whole result as `Cert.Bnn.G`.

  With `z` the ten logits of row `r`: the row maximum is folded from −∞ by the host's reduce and then bounded below
  by −∞ once more, which changes nothing; the shifted logits `z_k − max z` are exponentiated and summed by a host sum
  from the initial value 0; the result at `q` is `(z_q − max z) − log Σ_k exp (z_k − max z)`.
-/
import proofs.«114342_j47201690583462_1_alg».proof.Proof.RefValue

noncomputable section

namespace Cert.ReferenceIdeal.RefValue

open Cert.ReferenceIdeal Cert.ReferenceIdeal.Gen Cert.ReferenceIdeal.ReadP Idealize.ShloMosaic Idealize.ShloMosaic.ValueIdx Cert.LibRowOps
open Cert.Bnn (mat vec)

variable (x0 : (⟨S65536x1024, .f32⟩ : BufTy).Contents (Elt Ideal)) (x1 : (⟨S50x1024, .f32⟩ : BufTy).Contents (Elt Ideal)) (x2 : (⟨S50, .f32⟩ : BufTy).Contents (Elt Ideal)) (x3 : (⟨S50, .f32⟩ : BufTy).Contents (Elt Ideal)) (x4 : (⟨S50, .f32⟩ : BufTy).Contents (Elt Ideal)) (x5 : (⟨S50, .f32⟩ : BufTy).Contents (Elt Ideal)) (x6 : (⟨S50, .f32⟩ : BufTy).Contents (Elt Ideal)) (x7 : (⟨S20x50, .f32⟩ : BufTy).Contents (Elt Ideal)) (x8 : (⟨S20, .f32⟩ : BufTy).Contents (Elt Ideal)) (x9 : (⟨S20, .f32⟩ : BufTy).Contents (Elt Ideal)) (x10 : (⟨S20, .f32⟩ : BufTy).Contents (Elt Ideal)) (x11 : (⟨S20, .f32⟩ : BufTy).Contents (Elt Ideal)) (x12 : (⟨S20, .f32⟩ : BufTy).Contents (Elt Ideal)) (x13 : (⟨S10x20, .f32⟩ : BufTy).Contents (Elt Ideal)) (x14 : (⟨S10, .f32⟩ : BufTy).Contents (Elt Ideal))

/-- The row maximum the reference subtracts, at row `r`: the maximum of the row's logits folded from −∞. -/
theorem rowmax_eq (r : Fin 65536) :
    val_main_call5_v2 (F := Ideal) x0 x1 x2 x3 x4 x5 x6 x7 x8 x9 x10 x11 x12 x13 x14 (ix1 r)
      = Cert.Bnn.rowMax (fun k => val_main_v64 (F := Ideal) x0 x1 x2 x3 x4 x5 x6 x7 x8 x9 x10 x11 x12 x13 x14 (ix2 r k)) := by
  rw [val_main_call5_v2_apply, val_main_call5_v1_apply, val_main_call5_cst_0_apply]
  unfold val_main_call5_v0
  rw [hostReduce_maximumf_row (val_main_v64 (F := Ideal) x0 x1 x2 x3 x4 x5 x6 x7 x8 x9 x10 x11 x12 x13 x14) (val_main_call5_cst (F := Ideal))
    reducesTo_S65536x10_S65536_d1 (by decide) h_S_ r]
  show max (Ideal.ofBits .f32 0xFF800000#32)
      ((Finset.univ : Finset (Fin 10)).fold max (Ideal.ofBits .f32 0xFF800000#32)
        (fun k => val_main_v64 (F := Ideal) x0 x1 x2 x3 x4 x5 x6 x7 x8 x9 x10 x11 x12 x13 x14 (ix2 r k))) = _
  exact max_eq_right ((Finset.le_fold_max _).mpr (Or.inl le_rfl))

/-- The shifted logit at `(r, k)`. -/
theorem shifted_eq (r : Fin 65536) (k : Fin 10) :
    val_main_call5_v5 (F := Ideal) x0 x1 x2 x3 x4 x5 x6 x7 x8 x9 x10 x11 x12 x13 x14 (ix2 r k)
      = val_main_v64 (F := Ideal) x0 x1 x2 x3 x4 x5 x6 x7 x8 x9 x10 x11 x12 x13 x14 (ix2 r k)
        - Cert.Bnn.rowMax (fun k' => val_main_v64 (F := Ideal) x0 x1 x2 x3 x4 x5 x6 x7 x8 x9 x10 x11 x12 x13 x14 (ix2 r k')) := by
  rw [val_main_call5_v5_apply, val_main_call5_v4_apply, val_main_call5_v3_apply]
  have e : idx_main_call5_v3 (idx_main_call5_v4 (ix2 r k)) = ix1 r :=
    funext fun a => Fin.ext (by match a with | ⟨0, _⟩ => rfl)
  rw [e, rowmax_eq]
  rfl

/-- The logarithm of the row's sum of exponentials, laid along the row. -/
theorem lse_eq (r : Fin 65536) (q : Fin 10) :
    val_main_call5_v10 (F := Ideal) x0 x1 x2 x3 x4 x5 x6 x7 x8 x9 x10 x11 x12 x13 x14 (ix2 r q)
      = Ideal.log (∑ k : Fin 10, Ideal.exp (val_main_v64 (F := Ideal) x0 x1 x2 x3 x4 x5 x6 x7 x8 x9 x10 x11 x12 x13 x14 (ix2 r k)
          - Cert.Bnn.rowMax (fun k' => val_main_v64 (F := Ideal) x0 x1 x2 x3 x4 x5 x6 x7 x8 x9 x10 x11 x12 x13 x14 (ix2 r k')))) := by
  rw [val_main_call5_v10_apply, val_main_call5_v9_apply, val_main_call5_v8_apply]
  have e : idx_main_call5_v8 (idx_main_call5_v10 (ix2 r q)) = ix1 r :=
    funext fun a => Fin.ext (by match a with | ⟨0, _⟩ => rfl)
  rw [e, val_main_call5_v7_apply, val_main_call5_cst_1_apply]
  have es : (∑ k : Fin 10, val_main_call5_v6 (F := Ideal) x0 x1 x2 x3 x4 x5 x6 x7 x8 x9 x10 x11 x12 x13 x14 (idx_main_call5_v7 (ix1 r) k))
      = ∑ k : Fin 10, Ideal.exp (val_main_v64 (F := Ideal) x0 x1 x2 x3 x4 x5 x6 x7 x8 x9 x10 x11 x12 x13 x14 (ix2 r k)
          - Cert.Bnn.rowMax (fun k' => val_main_v64 (F := Ideal) x0 x1 x2 x3 x4 x5 x6 x7 x8 x9 x10 x11 x12 x13 x14 (ix2 r k'))) :=
    Finset.sum_congr rfl fun k _ => by
      have ek : idx_main_call5_v7 (ix1 r) k = ix2 r k :=
        funext fun a => Fin.ext (by match a with | ⟨0, _⟩ => rfl | ⟨1, _⟩ => rfl)
      rw [ek, val_main_call5_v6_apply, shifted_eq]
      rfl
  rw [es]
  show Ideal.log (Ideal.ofBits .f32 0x00000000#32 + _) = _
  rw [Ideal.ofBits_zero_f32, zero_add]

/-- The reference's result at `(r, q)`: the log-softmax of row `r`'s logits at `q`. -/
theorem out_logSoftmax (r : Fin 65536) (q : Fin 10) :
    val_main_v65 (F := Ideal) x0 x1 x2 x3 x4 x5 x6 x7 x8 x9 x10 x11 x12 x13 x14 (ix2 r q)
      = Cert.Bnn.logSoftmax (fun k => val_main_v64 (F := Ideal) x0 x1 x2 x3 x4 x5 x6 x7 x8 x9 x10 x11 x12 x13 x14 (ix2 r k)) q := by
  rw [val_main_v65_apply, shifted_eq, lse_eq]
  rfl

/-- THE REFERENCE'S RESULT ARRAY is `Cert.Bnn.G` of the argument arrays. -/
theorem result_eq :
    val_main_v65 (F := Ideal) x0 x1 x2 x3 x4 x5 x6 x7 x8 x9 x10 x11 x12 x13 x14
      = Cert.Bnn.G x0 x1 x2 x3 x4 x5 x6 x7 x8 x9 x10 x11 x12 x13 x14 := by
  funext i
  obtain ⟨r, q, rfl⟩ : ∃ (r : Fin 65536) (q : Fin 10), i = ix2 r q := ⟨i 0, i 1, eq_ix2 i⟩
  rw [out_logSoftmax]
  have hz : (fun k => val_main_v64 (F := Ideal) x0 x1 x2 x3 x4 x5 x6 x7 x8 x9 x10 x11 x12 x13 x14 (ix2 r k))
      = Cert.Bnn.logits (Cert.Bnn.layer (Cert.Bnn.layer (mat x0 r) (mat x1) (vec x2) (vec x3) (vec x4) (vec x5) (vec x6))
          (mat x7) (vec x8) (vec x9) (vec x10) (vec x11) (vec x12)) (mat x13) (vec x14) :=
    funext fun k => logits3 x0 x1 x2 x3 x4 x5 x6 x7 x8 x9 x10 x11 x12 x13 x14 r k
  rw [hz]
  rfl

end Cert.ReferenceIdeal.RefValue

end
-- ==== Proof.KBody.lean ====
/-
  The kernel's body at one grid point, read entry by entry over the extended reals.

  The body works on a tile of 2048 input rows. Its three stretches are the three layers of the network:
    * the first takes the tile `x` and gives, at `(p, j)`, hidden unit `j` of row `p`: the sign of the batch-normalised
      `Σ_k x(p, k) · sgn w1(j, k) + b1(j)`;
    * the second does the same over the 50 hidden values of row `p`;
    * the third forms the ten logits of row `p` and subtracts their maximum and then the logarithm of the sum of the
      exponentials of the shifted logits: the log-softmax of the row.
  A change of float format is the identity on extended reals, the bf16 and the f32 spellings of ±1 are the same two
  numbers, and a matrix product into a zero accumulator is the plain sum over the contracted axis; so each stretch IS the
  corresponding function of `Cert.Bnn`, entry by entry.
-/
import proofs.«114342_j47201690583462_1_alg».proof.Proof.Gen.KernelIdeal.Skeleton
import proofs.«114342_j47201690583462_1_alg».proof.Proof.Spec
import proofs.«114342_j47201690583462_1_alg».proof.Proof.Consts
import proofs.«114342_j47201690583462_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LibRowOps

/-! ### The matrix product of layer 1: `[2048, 1024] · [50, 1024]ᵀ`, both operands contracted along their axis 1 -/

theorem lhs1_0 (i : S2048x50.Idx) (q : dot_S2048x1024_S50x1024_S2048x50_1_1_0_0_n_n.contr.Idx) :
    (dot_S2048x1024_S50x1024_S2048x50_1_1_0_0_n_n.lhsIdx i q 0).val = (i 0).val := by
  unfold DotDims.lhsIdx
  rw [dif_neg (show ¬(0 : Fin S2048x1024.rank) ∈ dot_S2048x1024_S50x1024_S2048x50_1_1_0_0_n_n.lhsBatch by decide), dif_pos (show (0 : Fin S2048x1024.rank) ∈ dot_S2048x1024_S50x1024_S2048x50_1_1_0_0_n_n.lhsNonContracting by decide)]
  rfl
theorem lhs1_1 (i : S2048x50.Idx) (q : dot_S2048x1024_S50x1024_S2048x50_1_1_0_0_n_n.contr.Idx) :
    (dot_S2048x1024_S50x1024_S2048x50_1_1_0_0_n_n.lhsIdx i q 1).val = (q ⟨0, by decide⟩).val :=
  dot_S2048x1024_S50x1024_S2048x50_1_1_0_0_n_n.lhsIdx_val_of_single rfl i q
theorem rhs1_0 (i : S2048x50.Idx) (q : dot_S2048x1024_S50x1024_S2048x50_1_1_0_0_n_n.contr.Idx) :
    (dot_S2048x1024_S50x1024_S2048x50_1_1_0_0_n_n.rhsIdx i q 0).val = (i 1).val := by
  unfold DotDims.rhsIdx
  rw [dif_neg (show ¬(0 : Fin S50x1024.rank) ∈ dot_S2048x1024_S50x1024_S2048x50_1_1_0_0_n_n.rhsBatch by decide), dif_pos (show (0 : Fin S50x1024.rank) ∈ dot_S2048x1024_S50x1024_S2048x50_1_1_0_0_n_n.rhsNonContracting by decide)]
  rfl
theorem rhs1_1 (i : S2048x50.Idx) (q : dot_S2048x1024_S50x1024_S2048x50_1_1_0_0_n_n.contr.Idx) :
    (dot_S2048x1024_S50x1024_S2048x50_1_1_0_0_n_n.rhsIdx i q 1).val = (q ⟨0, by decide⟩).val :=
  dot_S2048x1024_S50x1024_S2048x50_1_1_0_0_n_n.rhsIdx_val_of_single rfl i q

/-- Into a zero accumulator, entry `(p, j)` of the product is `Σ_k a(p, k) · b(j, k)`. -/
theorem matmul1_apply (a : FVec Ideal S2048x1024 .bf16) (b : FVec Ideal S50x1024 .bf16) (p : Fin 2048) (j : Fin 50) :
    matmul dot_S2048x1024_S50x1024_S2048x50_1_1_0_0_n_n none a b (constant S2048x50 .f32 0x00000000#32) (ix2 p j)
      = ∑ k : Fin 1024, a (ix2 p k) * b (ix2 j k) := by
  simp only [matmul]
  rw [Ideal.matmul_constant_zero_apply, ← Equiv.sum_comp (contrEquiv1 dot_S2048x1024_S50x1024_S2048x50_1_1_0_0_n_n 1024 rfl rfl).symm]
  refine Finset.sum_congr rfl fun k _ => ?_
  have hk := contrEquiv1_symm_val dot_S2048x1024_S50x1024_S2048x50_1_1_0_0_n_n 1024 rfl rfl k
  have el : dot_S2048x1024_S50x1024_S2048x50_1_1_0_0_n_n.lhsIdx (ix2 p j) ((contrEquiv1 dot_S2048x1024_S50x1024_S2048x50_1_1_0_0_n_n 1024 rfl rfl).symm k) = ix2 p k := funext fun a => Fin.ext (by
    match a with
    | ⟨0, _⟩ => exact lhs1_0 _ _
    | ⟨1, _⟩ => exact (lhs1_1 _ _).trans hk)
  have er : dot_S2048x1024_S50x1024_S2048x50_1_1_0_0_n_n.rhsIdx (ix2 p j) ((contrEquiv1 dot_S2048x1024_S50x1024_S2048x50_1_1_0_0_n_n 1024 rfl rfl).symm k) = ix2 j k := funext fun a => Fin.ext (by
    match a with
    | ⟨0, _⟩ => exact rhs1_0 _ _
    | ⟨1, _⟩ => exact (rhs1_1 _ _).trans hk)
  rw [el, er]

/-! ### The matrix product of layer 2: `[2048, 50] · [20, 50]ᵀ`, both operands contracted along their axis 1 -/

theorem lhs2_0 (i : S2048x20.Idx) (q : dot_S2048x50_S20x50_S2048x20_1_1_0_0_n_n.contr.Idx) :
    (dot_S2048x50_S20x50_S2048x20_1_1_0_0_n_n.lhsIdx i q 0).val = (i 0).val := by
  unfold DotDims.lhsIdx
  rw [dif_neg (show ¬(0 : Fin S2048x50.rank) ∈ dot_S2048x50_S20x50_S2048x20_1_1_0_0_n_n.lhsBatch by decide), dif_pos (show (0 : Fin S2048x50.rank) ∈ dot_S2048x50_S20x50_S2048x20_1_1_0_0_n_n.lhsNonContracting by decide)]
  rfl
theorem lhs2_1 (i : S2048x20.Idx) (q : dot_S2048x50_S20x50_S2048x20_1_1_0_0_n_n.contr.Idx) :
    (dot_S2048x50_S20x50_S2048x20_1_1_0_0_n_n.lhsIdx i q 1).val = (q ⟨0, by decide⟩).val :=
  dot_S2048x50_S20x50_S2048x20_1_1_0_0_n_n.lhsIdx_val_of_single rfl i q
theorem rhs2_0 (i : S2048x20.Idx) (q : dot_S2048x50_S20x50_S2048x20_1_1_0_0_n_n.contr.Idx) :
    (dot_S2048x50_S20x50_S2048x20_1_1_0_0_n_n.rhsIdx i q 0).val = (i 1).val := by
  unfold DotDims.rhsIdx
  rw [dif_neg (show ¬(0 : Fin S20x50.rank) ∈ dot_S2048x50_S20x50_S2048x20_1_1_0_0_n_n.rhsBatch by decide), dif_pos (show (0 : Fin S20x50.rank) ∈ dot_S2048x50_S20x50_S2048x20_1_1_0_0_n_n.rhsNonContracting by decide)]
  rfl
theorem rhs2_1 (i : S2048x20.Idx) (q : dot_S2048x50_S20x50_S2048x20_1_1_0_0_n_n.contr.Idx) :
    (dot_S2048x50_S20x50_S2048x20_1_1_0_0_n_n.rhsIdx i q 1).val = (q ⟨0, by decide⟩).val :=
  dot_S2048x50_S20x50_S2048x20_1_1_0_0_n_n.rhsIdx_val_of_single rfl i q

/-- Into a zero accumulator, entry `(p, j)` of the product is `Σ_k a(p, k) · b(j, k)`. -/
theorem matmul2_apply (a : FVec Ideal S2048x50 .bf16) (b : FVec Ideal S20x50 .bf16) (p : Fin 2048) (j : Fin 20) :
    matmul dot_S2048x50_S20x50_S2048x20_1_1_0_0_n_n none a b (constant S2048x20 .f32 0x00000000#32) (ix2 p j)
      = ∑ k : Fin 50, a (ix2 p k) * b (ix2 j k) := by
  simp only [matmul]
  rw [Ideal.matmul_constant_zero_apply, ← Equiv.sum_comp (contrEquiv1 dot_S2048x50_S20x50_S2048x20_1_1_0_0_n_n 50 rfl rfl).symm]
  refine Finset.sum_congr rfl fun k _ => ?_
  have hk := contrEquiv1_symm_val dot_S2048x50_S20x50_S2048x20_1_1_0_0_n_n 50 rfl rfl k
  have el : dot_S2048x50_S20x50_S2048x20_1_1_0_0_n_n.lhsIdx (ix2 p j) ((contrEquiv1 dot_S2048x50_S20x50_S2048x20_1_1_0_0_n_n 50 rfl rfl).symm k) = ix2 p k := funext fun a => Fin.ext (by
    match a with
    | ⟨0, _⟩ => exact lhs2_0 _ _
    | ⟨1, _⟩ => exact (lhs2_1 _ _).trans hk)
  have er : dot_S2048x50_S20x50_S2048x20_1_1_0_0_n_n.rhsIdx (ix2 p j) ((contrEquiv1 dot_S2048x50_S20x50_S2048x20_1_1_0_0_n_n 50 rfl rfl).symm k) = ix2 j k := funext fun a => Fin.ext (by
    match a with
    | ⟨0, _⟩ => exact rhs2_0 _ _
    | ⟨1, _⟩ => exact (rhs2_1 _ _).trans hk)
  rw [el, er]

/-! ### The matrix product of layer 3: `[2048, 20] · [10, 20]ᵀ`, both operands contracted along their axis 1 -/

theorem lhs3_0 (i : S2048x10.Idx) (q : dot_S2048x20_S10x20_S2048x10_1_1_0_0_n_n.contr.Idx) :
    (dot_S2048x20_S10x20_S2048x10_1_1_0_0_n_n.lhsIdx i q 0).val = (i 0).val := by
  unfold DotDims.lhsIdx
  rw [dif_neg (show ¬(0 : Fin S2048x20.rank) ∈ dot_S2048x20_S10x20_S2048x10_1_1_0_0_n_n.lhsBatch by decide), dif_pos (show (0 : Fin S2048x20.rank) ∈ dot_S2048x20_S10x20_S2048x10_1_1_0_0_n_n.lhsNonContracting by decide)]
  rfl
theorem lhs3_1 (i : S2048x10.Idx) (q : dot_S2048x20_S10x20_S2048x10_1_1_0_0_n_n.contr.Idx) :
    (dot_S2048x20_S10x20_S2048x10_1_1_0_0_n_n.lhsIdx i q 1).val = (q ⟨0, by decide⟩).val :=
  dot_S2048x20_S10x20_S2048x10_1_1_0_0_n_n.lhsIdx_val_of_single rfl i q
theorem rhs3_0 (i : S2048x10.Idx) (q : dot_S2048x20_S10x20_S2048x10_1_1_0_0_n_n.contr.Idx) :
    (dot_S2048x20_S10x20_S2048x10_1_1_0_0_n_n.rhsIdx i q 0).val = (i 1).val := by
  unfold DotDims.rhsIdx
  rw [dif_neg (show ¬(0 : Fin S10x20.rank) ∈ dot_S2048x20_S10x20_S2048x10_1_1_0_0_n_n.rhsBatch by decide), dif_pos (show (0 : Fin S10x20.rank) ∈ dot_S2048x20_S10x20_S2048x10_1_1_0_0_n_n.rhsNonContracting by decide)]
  rfl
theorem rhs3_1 (i : S2048x10.Idx) (q : dot_S2048x20_S10x20_S2048x10_1_1_0_0_n_n.contr.Idx) :
    (dot_S2048x20_S10x20_S2048x10_1_1_0_0_n_n.rhsIdx i q 1).val = (q ⟨0, by decide⟩).val :=
  dot_S2048x20_S10x20_S2048x10_1_1_0_0_n_n.rhsIdx_val_of_single rfl i q

/-- Into a zero accumulator, entry `(p, j)` of the product is `Σ_k a(p, k) · b(j, k)`. -/
theorem matmul3_apply (a : FVec Ideal S2048x20 .bf16) (b : FVec Ideal S10x20 .bf16) (p : Fin 2048) (j : Fin 10) :
    matmul dot_S2048x20_S10x20_S2048x10_1_1_0_0_n_n none a b (constant S2048x10 .f32 0x00000000#32) (ix2 p j)
      = ∑ k : Fin 20, a (ix2 p k) * b (ix2 j k) := by
  simp only [matmul]
  rw [Ideal.matmul_constant_zero_apply, ← Equiv.sum_comp (contrEquiv1 dot_S2048x20_S10x20_S2048x10_1_1_0_0_n_n 20 rfl rfl).symm]
  refine Finset.sum_congr rfl fun k _ => ?_
  have hk := contrEquiv1_symm_val dot_S2048x20_S10x20_S2048x10_1_1_0_0_n_n 20 rfl rfl k
  have el : dot_S2048x20_S10x20_S2048x10_1_1_0_0_n_n.lhsIdx (ix2 p j) ((contrEquiv1 dot_S2048x20_S10x20_S2048x10_1_1_0_0_n_n 20 rfl rfl).symm k) = ix2 p k := funext fun a => Fin.ext (by
    match a with
    | ⟨0, _⟩ => exact lhs3_0 _ _
    | ⟨1, _⟩ => exact (lhs3_1 _ _).trans hk)
  have er : dot_S2048x20_S10x20_S2048x10_1_1_0_0_n_n.rhsIdx (ix2 p j) ((contrEquiv1 dot_S2048x20_S10x20_S2048x10_1_1_0_0_n_n 20 rfl rfl).symm k) = ix2 j k := funext fun a => Fin.ext (by
    match a with
    | ⟨0, _⟩ => exact rhs3_0 _ _
    | ⟨1, _⟩ => exact (rhs3_1 _ _).trans hk)
  rw [el, er]

/-! ### Pointwise transcendental operations read at an index -/

variable {s : Shape} {φ : FTy}

theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl

/-! ### The row reductions of the output layer, at the body's literal shapes -/

/-- The row maximum of a `[2048, 10]` tile at row `p`: the maximum of its ten entries, folded from −∞. -/
theorem rowmax_apply (v : FVec Ideal S2048x10 .f32) (hφ : FKind.Formats .f32)
    (hacc : (0xFF800000#32 : BitVec 32) = FKind.maximumf.neutral .f32 hφ) (p : Fin 2048) :
    multiReduction .maximumf [1] S2048 v 0xFF800000#32 reduces_S2048x10_S2048 hφ hacc (ix1 p)
      = (Finset.univ : Finset (Fin 10)).fold max (Ideal.ofBits .f32 0xFF800000#32) (fun k => v (ix2 p k)) :=
  multiReduction_maximumf_row v _ reduces_S2048x10_S2048 hφ hacc p

/-- The row sum of a `[2048, 10]` tile at row `p`. -/
theorem rowsum_apply (v : FVec Ideal S2048x10 .f32) (hφ : FKind.Formats .f32)
    (hacc : (0x00000000#32 : BitVec 32) = FKind.add.neutral .f32 hφ) (p : Fin 2048) :
    multiReduction .add [1] S2048 v 0x00000000#32 reduces_S2048x10_S2048 hφ hacc (ix1 p)
      = ∑ k : Fin 10, v (ix2 p k) :=
  multiReduction_add_row v _ reduces_S2048x10_S2048 hφ hacc p

/-- A `[2048]` vector cast to a column reads its entry `p` at `(p, 0)`. -/
theorem col_apply (v : FVec Ideal S2048 .f32) (p : Fin 2048) :
    shapeCast S2048x1 v shapeCasts_S2048_S2048x1 (ix2 p (0 : Fin 1)) = v (ix1 p) :=
  shapeCast_a_a1_apply v shapeCasts_S2048_S2048x1 p 0

/-- A `[2048, 1]` column broadcast over the ten columns reads its entry `(p, 0)` at `(p, q)`. -/
theorem colBcast_apply (v : FVec Ideal S2048x1 .f32) (p : Fin 2048) (q : Fin 10) :
    broadcastTo S2048x10 v broadcasts_S2048x1_S2048x10 (ix2 p q) = v (ix2 p (0 : Fin 1)) :=
  broadcastTo_a1_ab_apply v broadcasts_S2048x1_S2048x10 p q

/-! ### The three stretches of the body -/

/-- FIRST LAYER: entry `(p, j)` of the first stretch's value is hidden unit `j` on row `p` of the tile. -/
theorem pay2_apply (x0 : Vec Ideal S2048x1024 .f32) (w : Vec Ideal S50x1024 .f32) (b g mu var be : Vec Ideal S1x50 .f32)
    (p : Fin 2048) (j : Fin 50) :
    k0_pay2 x0 w b g mu var be (ix2 p j)
      = Cert.Bnn.hid (fun k => x0 (ix2 p k)) (fun k => w (ix2 j k)) (b (ix2 0 j)) (g (ix2 0 j)) (be (ix2 0 j))
          (mu (ix2 0 j)) (var (ix2 0 j)) := by
  unfold k0_pay2
  simp only [select_apply, cmpf_apply, addf_apply, mulf_apply, subf_apply, broadcast_apply, matmul1_apply, truncf_apply,
    broadcastTo_1b_ab_apply, shapeCast_self]
  simp only [Cert.Bnn.hid, Cert.Bnn.sgn, Cert.Bnn.bn, Cert.Bnn.lin, Ideal.ofBits_def, Ideal.cmpf_def,
    Cert.Bnn.Consts.bf16_one_eq, Cert.Bnn.Consts.bf16_neg_one_eq]
  rfl

/-- SECOND LAYER: entry `(p, j)` of the second stretch's value is hidden unit `j` over the first layer's row `p`. -/
theorem pay3_apply (h : FVec Ideal S2048x50 .f32) (w : Vec Ideal S20x50 .f32) (b g mu var be : Vec Ideal S1x20 .f32)
    (p : Fin 2048) (j : Fin 20) :
    k0_pay3 h w b g mu var be (ix2 p j)
      = Cert.Bnn.hid (fun k => h (ix2 p k)) (fun k => w (ix2 j k)) (b (ix2 0 j)) (g (ix2 0 j)) (be (ix2 0 j))
          (mu (ix2 0 j)) (var (ix2 0 j)) := by
  unfold k0_pay3
  simp only [select_apply, cmpf_apply, addf_apply, mulf_apply, subf_apply, broadcast_apply, matmul2_apply, truncf_apply,
    broadcastTo_1b_ab_apply, shapeCast_self]
  simp only [Cert.Bnn.hid, Cert.Bnn.sgn, Cert.Bnn.bn, Cert.Bnn.lin, Ideal.ofBits_def, Ideal.cmpf_def,
    Cert.Bnn.Consts.bf16_one_eq, Cert.Bnn.Consts.bf16_neg_one_eq]
  rfl

/-- The logits of a tile: the third matrix product plus the output bias laid along the rows (the body's operations up
    to the addition of `b5`). -/
def logitsTile (h : FVec Ideal S2048x20 .bf16) (w : Vec Ideal S10x20 .f32) (b : Vec Ideal S1x10 .f32) :
    FVec Ideal S2048x10 .f32 :=
  addf (F := Ideal)
    (matmul (F := Ideal) dot_S2048x20_S10x20_S2048x10_1_1_0_0_n_n none h
      (select (cmpf (F := Ideal) (φ := .f32) .oge w (broadcast S10x20 (Scalar.ofBits (F := Ideal) .f32 0x00000000#32)))
        (broadcast S10x20 (Scalar.ofBits (F := Ideal) .bf16 0x3F80#16))
        (broadcast S10x20 (Scalar.ofBits (F := Ideal) .bf16 0xBF80#16)))
      (constant (F := Ideal) S2048x10 .f32 0x00000000#32))
    (broadcastTo S2048x10 (shapeCast S1x10 b shapeCasts_S1x10_S1x10) broadcasts_S1x10_S2048x10)

/-- The body's last operations on a tile `v` of logits: subtract the row maximum, then the logarithm of the row sum of
    the exponentials. (The side conditions of the two reductions are parameters: what they prove is irrelevant.) -/
def lsmTile (v : FVec Ideal S2048x10 .f32) (hφ : FKind.Formats .f32)
    (hm : (0xFF800000#32 : BitVec 32) = FKind.maximumf.neutral .f32 hφ)
    (ha : (0x00000000#32 : BitVec 32) = FKind.add.neutral .f32 hφ) : FVec Ideal S2048x10 .f32 :=
  have mx : FVec Ideal S2048 .f32 :=
    multiReduction (F := Ideal) (φ := .f32) .maximumf [1] S2048 v 0xFF800000#32 reduces_S2048x10_S2048 hφ hm
  have sh : FVec Ideal S2048x10 .f32 :=
    subf (F := Ideal) v (broadcastTo S2048x10 (shapeCast S2048x1 mx shapeCasts_S2048_S2048x1) broadcasts_S2048x1_S2048x10)
  have sm : FVec Ideal S2048 .f32 :=
    multiReduction (F := Ideal) (φ := .f32) .add [1] S2048 (exp (F := Ideal) sh) 0x00000000#32 reduces_S2048x10_S2048 hφ ha
  subf (F := Ideal) sh
    (broadcastTo S2048x10 (log (F := Ideal) (shapeCast S2048x1 sm shapeCasts_S2048_S2048x1)) broadcasts_S2048x1_S2048x10)

/-- The stored value is those last operations on the logits tile: by unfolding. -/
theorem pay1_split (h : FVec Ideal S2048x20 .bf16) (w : Vec Ideal S10x20 .f32) (b : Vec Ideal S1x10 .f32) :
    k0_pay1 h w b = lsmTile (logitsTile h w b) (.inl rfl) rfl rfl := rfl

/-- Entry `(p, q)` of the logits tile: output unit `q` on row `p`. -/
theorem logitsTile_apply (h : FVec Ideal S2048x20 .bf16) (w : Vec Ideal S10x20 .f32) (b : Vec Ideal S1x10 .f32)
    (p : Fin 2048) (q : Fin 10) :
    logitsTile h w b (ix2 p q)
      = Cert.Bnn.lin (fun k => h (ix2 p k)) (fun k => w (ix2 q k)) (b (ix2 0 q)) := by
  unfold logitsTile
  simp only [select_apply, cmpf_apply, addf_apply, broadcast_apply, matmul3_apply, broadcastTo_1b_ab_apply, shapeCast_self]
  simp only [Cert.Bnn.sgn, Cert.Bnn.lin, Ideal.ofBits_def, Ideal.cmpf_def,
    Cert.Bnn.Consts.bf16_one_eq, Cert.Bnn.Consts.bf16_neg_one_eq]

/-- Entry `(p, q)` of the last operations on a tile: the log-softmax of the tile's row `p` at `q`. -/
theorem lsmTile_apply (v : FVec Ideal S2048x10 .f32) (hφ : FKind.Formats .f32)
    (hm : (0xFF800000#32 : BitVec 32) = FKind.maximumf.neutral .f32 hφ)
    (ha : (0x00000000#32 : BitVec 32) = FKind.add.neutral .f32 hφ) (p : Fin 2048) (q : Fin 10) :
    lsmTile v hφ hm ha (ix2 p q) = Cert.Bnn.logSoftmax (fun k => v (ix2 p k)) q := by
  unfold lsmTile
  simp only [subf_apply, colBcast_apply, col_apply, log_apply]
  rw [rowsum_apply]
  simp only [exp_apply, subf_apply, colBcast_apply, col_apply]
  rw [rowmax_apply]
  rfl

/-- OUTPUT LAYER: entry `(p, q)` of the stored value is the log-softmax, at `q`, of the ten logits of row `p`. -/
theorem pay1_apply (h : FVec Ideal S2048x20 .bf16) (w : Vec Ideal S10x20 .f32) (b : Vec Ideal S1x10 .f32)
    (p : Fin 2048) (q : Fin 10) :
    k0_pay1 h w b (ix2 p q)
      = Cert.Bnn.logSoftmax (fun q' => Cert.Bnn.lin (fun k => h (ix2 p k)) (fun k => w (ix2 q' k)) (b (ix2 0 q'))) q := by
  refine (congrFun (pay1_split h w b) (ix2 p q)).trans ?_
  refine (lsmTile_apply (logitsTile h w b) (.inl rfl) rfl rfl p q).trans ?_
  exact congrArg (fun z => Cert.Bnn.logSoftmax z q) (funext fun k => logitsTile_apply h w b p k)

/-! ### The whole body on a tile -/

/-- Entry `(p, q)` of what the body stores, from its fifteen loaded blocks: output `q` of the network on row `p` of the
    input tile, with the parameter blocks read as matrices and as the one row of a `[1, n]` block. -/
theorem tile_apply (x0 : Vec Ideal S2048x1024 .f32) (w1 : Vec Ideal S50x1024 .f32) (b1 g1 be1 m1 v1 : Vec Ideal S1x50 .f32)
    (w2 : Vec Ideal S20x50 .f32) (b2 g2 be2 m2 v2 : Vec Ideal S1x20 .f32) (w5 : Vec Ideal S10x20 .f32)
    (b5 : Vec Ideal S1x10 .f32) (p : Fin 2048) (q : Fin 10) :
    k0_pay1 (k0_pay3 (k0_pay2 x0 w1 b1 g1 m1 v1 be1) w2 b2 g2 m2 v2 be2) w5 b5 (ix2 p q)
      = Cert.Bnn.net (fun k => x0 (ix2 p k))
          (fun j k => w1 (ix2 j k)) (fun j => b1 (ix2 0 j)) (fun j => g1 (ix2 0 j)) (fun j => be1 (ix2 0 j))
          (fun j => m1 (ix2 0 j)) (fun j => v1 (ix2 0 j))
          (fun j k => w2 (ix2 j k)) (fun j => b2 (ix2 0 j)) (fun j => g2 (ix2 0 j)) (fun j => be2 (ix2 0 j))
          (fun j => m2 (ix2 0 j)) (fun j => v2 (ix2 0 j))
          (fun j k => w5 (ix2 j k)) (fun j => b5 (ix2 0 j)) q := by
  rw [pay1_apply]
  simp only [pay3_apply, pay2_apply]
  rfl

end Cert.KernelIdeal.Body

end
-- ==== Proof.KFinal.lean ====
/-
  From the kernel's blocks to its result array.

  The grid has 32 points; point `t` stages rows `2048 t … 2048 t + 2047` of `x` and writes the same rows of the result;
  every parameter window holds its whole (small) array at every point, the five-plus-five-plus-one parameter vectors
  having been reshaped to one-row matrices by the host before the region. So what point `t` writes back is block `t` of
  `Cert.Bnn.G` of the argument arrays, the 32 blocks tile the `[65536, 10]` result, and the array ends holding
  `Cert.Bnn.G` of the arguments.
-/
import proofs.«114342_j47201690583462_1_alg».proof.Proof.Gen.KernelIdeal.Value
import proofs.«114342_j47201690583462_1_alg».proof.Proof.KBody
import proofs.«114342_j47201690583462_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Final

open Cert.KernelIdeal Cert.KernelIdeal.Gen Cert.KernelIdeal.Body Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array the kernel should end with on core `c`: `Cert.Bnn.G` of the argument arrays as launched. -/
abbrev GA (c : Dev nD) : Cert.Bnn.A2 65536 10 :=
  Cert.Bnn.G
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))

theorem hz : (![0, 0] : Fin 2 → Nat) = fun _ => 0 := funext fun a => by fin_cases a <;> rfl

/-! ### The printed index maps, decided over the 32 grid points -/

/-- The `x` window and the output window move together down the rows, one block per point. -/
theorem idx_rows : ∀ t : Fin cfg0.N,
    win0_0.index t (0 : Fin 2) = win0_15.index t (0 : Fin 2) ∧ win0_0.index t (1 : Fin 2) = 0
    ∧ win0_15.index t (1 : Fin 2) = 0 ∧ win0_15.index t (0 : Fin 2) = t.val :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-! ### Each input window's block, read off the argument arrays -/

/-- The `x` window at point `t`: its entry `(p, k)` is entry `(2048 · (the output's block row) + p, k)` of `x`. -/
theorem x_read (c : Dev nD) (t : Fin cfg0.N) (p : Fin 2048) (k : Fin 1024) (i : S65536x1024.Idx)
    (hi0 : (i 0).val = win0_15.index t (0 : Fin 2) * 2048 + p.val) (hi1 : (i 1).val = k.val) :
    (iblk m c 0 t : Vec Ideal S2048x1024 .f32) (ix2 p k) = (m ((c : Thread nD τ).loc main_arg0) : S65536x1024.Idx → EReal) i := by
  obtain ⟨e0, e1, -⟩ := idx_rows t
  unfold iblk
  rw [View.read_apply]
  show V m c main_arg0 _ = _
  rw [V_main_arg0]
  congr 1
  funext a
  apply Fin.ext
  match a with
  | ⟨0, _⟩ => show win0_0.index t (0 : Fin 2) * 2048 + 1 * p.val = (i 0).val; rw [e0, hi0]; omega
  | ⟨1, _⟩ => show win0_0.index t (1 : Fin 2) * 1024 + 1 * k.val = (i 1).val; rw [e1, hi1]; omega

/-- Weight window 1 holds the whole `[50, 1024]` argument at every point. -/
theorem w1_read (c : Dev nD) (t : Fin cfg0.N) (j : Fin 50) (k : Fin 1024) :
    (iblk m c 1 t : Vec Ideal S50x1024 .f32) (ix2 j k) = (m ((c : Thread nD τ).loc main_arg1) : S50x1024.Idx → EReal) (ix2 j k) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t (0 : Fin 2) * 50 + 1 * j.val = j.val; rw [e0]; omega
  | ⟨1, _⟩ => show win0_1.index t (1 : Fin 2) * 1024 + 1 * k.val = k.val; rw [e1]; omega

/-- Weight window 7 holds the whole `[20, 50]` argument at every point. -/
theorem w7_read (c : Dev nD) (t : Fin cfg0.N) (j : Fin 20) (k : Fin 50) :
    (iblk m c 7 t : Vec Ideal S20x50 .f32) (ix2 j k) = (m ((c : Thread nD τ).loc main_arg7) : S20x50.Idx → EReal) (ix2 j k) := by
  obtain ⟨e0, e1⟩ := idx7 t
  unfold iblk
  rw [View.read_apply]
  show V m c main_arg7 _ = _
  rw [V_main_arg7]
  congr 1
  funext a
  apply Fin.ext
  match a with
  | ⟨0, _⟩ => show win0_7.index t (0 : Fin 2) * 20 + 1 * j.val = j.val; rw [e0]; omega
  | ⟨1, _⟩ => show win0_7.index t (1 : Fin 2) * 50 + 1 * k.val = k.val; rw [e1]; omega

/-- Weight window 13 holds the whole `[10, 20]` argument at every point. -/
theorem w13_read (c : Dev nD) (t : Fin cfg0.N) (j : Fin 10) (k : Fin 20) :
    (iblk m c 13 t : Vec Ideal S10x20 .f32) (ix2 j k) = (m ((c : Thread nD τ).loc main_arg13) : S10x20.Idx → EReal) (ix2 j k) := by
  obtain ⟨e0, e1⟩ := idx13 t
  unfold iblk
  rw [View.read_apply]
  show V m c main_arg13 _ = _
  rw [V_main_arg13]
  congr 1
  funext a
  apply Fin.ext
  match a with
  | ⟨0, _⟩ => show win0_13.index t (0 : Fin 2) * 10 + 1 * j.val = j.val; rw [e0]; omega
  | ⟨1, _⟩ => show win0_13.index t (1 : Fin 2) * 20 + 1 * k.val = k.val; rw [e1]; omega

/-- The host reshapes parameter 2 from `[50]` to `[1, 50]` before the region. -/
theorem V_p2 (c : Dev nD) : (V m c main_v0 : S1x50.Idx → EReal)
    = shapeCast S1x50 (m ((c : Thread nD τ).loc main_arg2) : S50.Idx → EReal) shapeCasts_S50_S1x50 := by
  dsimp only [V, hostOps0]
  after_results
  rfl

/-- Parameter window 2 holds that one row at every point: its entry `(0, j)` is entry `j` of the argument. -/
theorem p2_read (c : Dev nD) (t : Fin cfg0.N) (j : Fin 50) :
    (iblk m c 2 t : Vec Ideal S1x50 .f32) (ix2 0 j) = (m ((c : Thread nD τ).loc main_arg2) : S50.Idx → EReal) (ix1 j) := by
  obtain ⟨e0, e1⟩ := idx2 t
  unfold iblk
  rw [View.read_apply]
  show V m c main_v0 _ = _
  rw [V_p2]
  refine Eq.trans (congrArg (shapeCast S1x50 (m ((c : Thread nD τ).loc main_arg2) : S50.Idx → EReal) shapeCasts_S50_S1x50) ?_)
    (shapeCast_a_1a_apply (m ((c : Thread nD τ).loc main_arg2) : S50.Idx → EReal) shapeCasts_S50_S1x50 (0 : Fin 1) j)
  funext a
  apply Fin.ext
  match a with
  | ⟨0, _⟩ => show win0_2.index t (0 : Fin 2) * 1 + 1 * 0 = 0; rw [e0]
  | ⟨1, _⟩ => show win0_2.index t (1 : Fin 2) * 50 + 1 * j.val = j.val; rw [e1]; omega

/-- The host reshapes parameter 3 from `[50]` to `[1, 50]` before the region. -/
theorem V_p3 (c : Dev nD) : (V m c main_v1 : S1x50.Idx → EReal)
    = shapeCast S1x50 (m ((c : Thread nD τ).loc main_arg3) : S50.Idx → EReal) shapeCasts_S50_S1x50 := by
  dsimp only [V, hostOps0]
  after_results
  rfl

/-- Parameter window 3 holds that one row at every point: its entry `(0, j)` is entry `j` of the argument. -/
theorem p3_read (c : Dev nD) (t : Fin cfg0.N) (j : Fin 50) :
    (iblk m c 3 t : Vec Ideal S1x50 .f32) (ix2 0 j) = (m ((c : Thread nD τ).loc main_arg3) : S50.Idx → EReal) (ix1 j) := by
  obtain ⟨e0, e1⟩ := idx3 t
  unfold iblk
  rw [View.read_apply]
  show V m c main_v1 _ = _
  rw [V_p3]
  refine Eq.trans (congrArg (shapeCast S1x50 (m ((c : Thread nD τ).loc main_arg3) : S50.Idx → EReal) shapeCasts_S50_S1x50) ?_)
    (shapeCast_a_1a_apply (m ((c : Thread nD τ).loc main_arg3) : S50.Idx → EReal) shapeCasts_S50_S1x50 (0 : Fin 1) j)
  funext a
  apply Fin.ext
  match a with
  | ⟨0, _⟩ => show win0_3.index t (0 : Fin 2) * 1 + 1 * 0 = 0; rw [e0]
  | ⟨1, _⟩ => show win0_3.index t (1 : Fin 2) * 50 + 1 * j.val = j.val; rw [e1]; omega

/-- The host reshapes parameter 4 from `[50]` to `[1, 50]` before the region. -/
theorem V_p4 (c : Dev nD) : (V m c main_v2 : S1x50.Idx → EReal)
    = shapeCast S1x50 (m ((c : Thread nD τ).loc main_arg4) : S50.Idx → EReal) shapeCasts_S50_S1x50 := by
  dsimp only [V, hostOps0]
  after_results
  rfl

/-- Parameter window 4 holds that one row at every point: its entry `(0, j)` is entry `j` of the argument. -/
theorem p4_read (c : Dev nD) (t : Fin cfg0.N) (j : Fin 50) :
    (iblk m c 4 t : Vec Ideal S1x50 .f32) (ix2 0 j) = (m ((c : Thread nD τ).loc main_arg4) : S50.Idx → EReal) (ix1 j) := by
  obtain ⟨e0, e1⟩ := idx4 t
  unfold iblk
  rw [View.read_apply]
  show V m c main_v2 _ = _
  rw [V_p4]
  refine Eq.trans (congrArg (shapeCast S1x50 (m ((c : Thread nD τ).loc main_arg4) : S50.Idx → EReal) shapeCasts_S50_S1x50) ?_)
    (shapeCast_a_1a_apply (m ((c : Thread nD τ).loc main_arg4) : S50.Idx → EReal) shapeCasts_S50_S1x50 (0 : Fin 1) j)
  funext a
  apply Fin.ext
  match a with
  | ⟨0, _⟩ => show win0_4.index t (0 : Fin 2) * 1 + 1 * 0 = 0; rw [e0]
  | ⟨1, _⟩ => show win0_4.index t (1 : Fin 2) * 50 + 1 * j.val = j.val; rw [e1]; omega

/-- The host reshapes parameter 5 from `[50]` to `[1, 50]` before the region. -/
theorem V_p5 (c : Dev nD) : (V m c main_v3 : S1x50.Idx → EReal)
    = shapeCast S1x50 (m ((c : Thread nD τ).loc main_arg5) : S50.Idx → EReal) shapeCasts_S50_S1x50 := by
  dsimp only [V, hostOps0]
  after_results
  rfl

/-- Parameter window 5 holds that one row at every point: its entry `(0, j)` is entry `j` of the argument. -/
theorem p5_read (c : Dev nD) (t : Fin cfg0.N) (j : Fin 50) :
    (iblk m c 5 t : Vec Ideal S1x50 .f32) (ix2 0 j) = (m ((c : Thread nD τ).loc main_arg5) : S50.Idx → EReal) (ix1 j) := by
  obtain ⟨e0, e1⟩ := idx5 t
  unfold iblk
  rw [View.read_apply]
  show V m c main_v3 _ = _
  rw [V_p5]
  refine Eq.trans (congrArg (shapeCast S1x50 (m ((c : Thread nD τ).loc main_arg5) : S50.Idx → EReal) shapeCasts_S50_S1x50) ?_)
    (shapeCast_a_1a_apply (m ((c : Thread nD τ).loc main_arg5) : S50.Idx → EReal) shapeCasts_S50_S1x50 (0 : Fin 1) j)
  funext a
  apply Fin.ext
  match a with
  | ⟨0, _⟩ => show win0_5.index t (0 : Fin 2) * 1 + 1 * 0 = 0; rw [e0]
  | ⟨1, _⟩ => show win0_5.index t (1 : Fin 2) * 50 + 1 * j.val = j.val; rw [e1]; omega

/-- The host reshapes parameter 6 from `[50]` to `[1, 50]` before the region. -/
theorem V_p6 (c : Dev nD) : (V m c main_v4 : S1x50.Idx → EReal)
    = shapeCast S1x50 (m ((c : Thread nD τ).loc main_arg6) : S50.Idx → EReal) shapeCasts_S50_S1x50 := by
  dsimp only [V, hostOps0]
  after_results
  rfl

/-- Parameter window 6 holds that one row at every point: its entry `(0, j)` is entry `j` of the argument. -/
theorem p6_read (c : Dev nD) (t : Fin cfg0.N) (j : Fin 50) :
    (iblk m c 6 t : Vec Ideal S1x50 .f32) (ix2 0 j) = (m ((c : Thread nD τ).loc main_arg6) : S50.Idx → EReal) (ix1 j) := by
  obtain ⟨e0, e1⟩ := idx6 t
  unfold iblk
  rw [View.read_apply]
  show V m c main_v4 _ = _
  rw [V_p6]
  refine Eq.trans (congrArg (shapeCast S1x50 (m ((c : Thread nD τ).loc main_arg6) : S50.Idx → EReal) shapeCasts_S50_S1x50) ?_)
    (shapeCast_a_1a_apply (m ((c : Thread nD τ).loc main_arg6) : S50.Idx → EReal) shapeCasts_S50_S1x50 (0 : Fin 1) j)
  funext a
  apply Fin.ext
  match a with
  | ⟨0, _⟩ => show win0_6.index t (0 : Fin 2) * 1 + 1 * 0 = 0; rw [e0]
  | ⟨1, _⟩ => show win0_6.index t (1 : Fin 2) * 50 + 1 * j.val = j.val; rw [e1]; omega

/-- The host reshapes parameter 8 from `[20]` to `[1, 20]` before the region. -/
theorem V_p8 (c : Dev nD) : (V m c main_v5 : S1x20.Idx → EReal)
    = shapeCast S1x20 (m ((c : Thread nD τ).loc main_arg8) : S20.Idx → EReal) shapeCasts_S20_S1x20 := by
  dsimp only [V, hostOps0]
  after_results
  rfl

/-- Parameter window 8 holds that one row at every point: its entry `(0, j)` is entry `j` of the argument. -/
theorem p8_read (c : Dev nD) (t : Fin cfg0.N) (j : Fin 20) :
    (iblk m c 8 t : Vec Ideal S1x20 .f32) (ix2 0 j) = (m ((c : Thread nD τ).loc main_arg8) : S20.Idx → EReal) (ix1 j) := by
  obtain ⟨e0, e1⟩ := idx8 t
  unfold iblk
  rw [View.read_apply]
  show V m c main_v5 _ = _
  rw [V_p8]
  refine Eq.trans (congrArg (shapeCast S1x20 (m ((c : Thread nD τ).loc main_arg8) : S20.Idx → EReal) shapeCasts_S20_S1x20) ?_)
    (shapeCast_a_1a_apply (m ((c : Thread nD τ).loc main_arg8) : S20.Idx → EReal) shapeCasts_S20_S1x20 (0 : Fin 1) j)
  funext a
  apply Fin.ext
  match a with
  | ⟨0, _⟩ => show win0_8.index t (0 : Fin 2) * 1 + 1 * 0 = 0; rw [e0]
  | ⟨1, _⟩ => show win0_8.index t (1 : Fin 2) * 20 + 1 * j.val = j.val; rw [e1]; omega

/-- The host reshapes parameter 9 from `[20]` to `[1, 20]` before the region. -/
theorem V_p9 (c : Dev nD) : (V m c main_v6 : S1x20.Idx → EReal)
    = shapeCast S1x20 (m ((c : Thread nD τ).loc main_arg9) : S20.Idx → EReal) shapeCasts_S20_S1x20 := by
  dsimp only [V, hostOps0]
  after_results
  rfl

/-- Parameter window 9 holds that one row at every point: its entry `(0, j)` is entry `j` of the argument. -/
theorem p9_read (c : Dev nD) (t : Fin cfg0.N) (j : Fin 20) :
    (iblk m c 9 t : Vec Ideal S1x20 .f32) (ix2 0 j) = (m ((c : Thread nD τ).loc main_arg9) : S20.Idx → EReal) (ix1 j) := by
  obtain ⟨e0, e1⟩ := idx9 t
  unfold iblk
  rw [View.read_apply]
  show V m c main_v6 _ = _
  rw [V_p9]
  refine Eq.trans (congrArg (shapeCast S1x20 (m ((c : Thread nD τ).loc main_arg9) : S20.Idx → EReal) shapeCasts_S20_S1x20) ?_)
    (shapeCast_a_1a_apply (m ((c : Thread nD τ).loc main_arg9) : S20.Idx → EReal) shapeCasts_S20_S1x20 (0 : Fin 1) j)
  funext a
  apply Fin.ext
  match a with
  | ⟨0, _⟩ => show win0_9.index t (0 : Fin 2) * 1 + 1 * 0 = 0; rw [e0]
  | ⟨1, _⟩ => show win0_9.index t (1 : Fin 2) * 20 + 1 * j.val = j.val; rw [e1]; omega

/-- The host reshapes parameter 10 from `[20]` to `[1, 20]` before the region. -/
theorem V_p10 (c : Dev nD) : (V m c main_v7 : S1x20.Idx → EReal)
    = shapeCast S1x20 (m ((c : Thread nD τ).loc main_arg10) : S20.Idx → EReal) shapeCasts_S20_S1x20 := by
  dsimp only [V, hostOps0]
  after_results
  rfl

/-- Parameter window 10 holds that one row at every point: its entry `(0, j)` is entry `j` of the argument. -/
theorem p10_read (c : Dev nD) (t : Fin cfg0.N) (j : Fin 20) :
    (iblk m c 10 t : Vec Ideal S1x20 .f32) (ix2 0 j) = (m ((c : Thread nD τ).loc main_arg10) : S20.Idx → EReal) (ix1 j) := by
  obtain ⟨e0, e1⟩ := idx10 t
  unfold iblk
  rw [View.read_apply]
  show V m c main_v7 _ = _
  rw [V_p10]
  refine Eq.trans (congrArg (shapeCast S1x20 (m ((c : Thread nD τ).loc main_arg10) : S20.Idx → EReal) shapeCasts_S20_S1x20) ?_)
    (shapeCast_a_1a_apply (m ((c : Thread nD τ).loc main_arg10) : S20.Idx → EReal) shapeCasts_S20_S1x20 (0 : Fin 1) j)
  funext a
  apply Fin.ext
  match a with
  | ⟨0, _⟩ => show win0_10.index t (0 : Fin 2) * 1 + 1 * 0 = 0; rw [e0]
  | ⟨1, _⟩ => show win0_10.index t (1 : Fin 2) * 20 + 1 * j.val = j.val; rw [e1]; omega

/-- The host reshapes parameter 11 from `[20]` to `[1, 20]` before the region. -/
theorem V_p11 (c : Dev nD) : (V m c main_v8 : S1x20.Idx → EReal)
    = shapeCast S1x20 (m ((c : Thread nD τ).loc main_arg11) : S20.Idx → EReal) shapeCasts_S20_S1x20 := by
  dsimp only [V, hostOps0]
  after_results
  rfl

/-- Parameter window 11 holds that one row at every point: its entry `(0, j)` is entry `j` of the argument. -/
theorem p11_read (c : Dev nD) (t : Fin cfg0.N) (j : Fin 20) :
    (iblk m c 11 t : Vec Ideal S1x20 .f32) (ix2 0 j) = (m ((c : Thread nD τ).loc main_arg11) : S20.Idx → EReal) (ix1 j) := by
  obtain ⟨e0, e1⟩ := idx11 t
  unfold iblk
  rw [View.read_apply]
  show V m c main_v8 _ = _
  rw [V_p11]
  refine Eq.trans (congrArg (shapeCast S1x20 (m ((c : Thread nD τ).loc main_arg11) : S20.Idx → EReal) shapeCasts_S20_S1x20) ?_)
    (shapeCast_a_1a_apply (m ((c : Thread nD τ).loc main_arg11) : S20.Idx → EReal) shapeCasts_S20_S1x20 (0 : Fin 1) j)
  funext a
  apply Fin.ext
  match a with
  | ⟨0, _⟩ => show win0_11.index t (0 : Fin 2) * 1 + 1 * 0 = 0; rw [e0]
  | ⟨1, _⟩ => show win0_11.index t (1 : Fin 2) * 20 + 1 * j.val = j.val; rw [e1]; omega

/-- The host reshapes parameter 12 from `[20]` to `[1, 20]` before the region. -/
theorem V_p12 (c : Dev nD) : (V m c main_v9 : S1x20.Idx → EReal)
    = shapeCast S1x20 (m ((c : Thread nD τ).loc main_arg12) : S20.Idx → EReal) shapeCasts_S20_S1x20 := by
  dsimp only [V, hostOps0]
  after_results
  rfl

/-- Parameter window 12 holds that one row at every point: its entry `(0, j)` is entry `j` of the argument. -/
theorem p12_read (c : Dev nD) (t : Fin cfg0.N) (j : Fin 20) :
    (iblk m c 12 t : Vec Ideal S1x20 .f32) (ix2 0 j) = (m ((c : Thread nD τ).loc main_arg12) : S20.Idx → EReal) (ix1 j) := by
  obtain ⟨e0, e1⟩ := idx12 t
  unfold iblk
  rw [View.read_apply]
  show V m c main_v9 _ = _
  rw [V_p12]
  refine Eq.trans (congrArg (shapeCast S1x20 (m ((c : Thread nD τ).loc main_arg12) : S20.Idx → EReal) shapeCasts_S20_S1x20) ?_)
    (shapeCast_a_1a_apply (m ((c : Thread nD τ).loc main_arg12) : S20.Idx → EReal) shapeCasts_S20_S1x20 (0 : Fin 1) j)
  funext a
  apply Fin.ext
  match a with
  | ⟨0, _⟩ => show win0_12.index t (0 : Fin 2) * 1 + 1 * 0 = 0; rw [e0]
  | ⟨1, _⟩ => show win0_12.index t (1 : Fin 2) * 20 + 1 * j.val = j.val; rw [e1]; omega

/-- The host reshapes parameter 14 from `[10]` to `[1, 10]` before the region. -/
theorem V_p14 (c : Dev nD) : (V m c main_v10 : S1x10.Idx → EReal)
    = shapeCast S1x10 (m ((c : Thread nD τ).loc main_arg14) : S10.Idx → EReal) shapeCasts_S10_S1x10 := by
  dsimp only [V, hostOps0]
  after_results
  rfl

/-- Parameter window 14 holds that one row at every point: its entry `(0, j)` is entry `j` of the argument. -/
theorem p14_read (c : Dev nD) (t : Fin cfg0.N) (j : Fin 10) :
    (iblk m c 14 t : Vec Ideal S1x10 .f32) (ix2 0 j) = (m ((c : Thread nD τ).loc main_arg14) : S10.Idx → EReal) (ix1 j) := by
  obtain ⟨e0, e1⟩ := idx14 t
  unfold iblk
  rw [View.read_apply]
  show V m c main_v10 _ = _
  rw [V_p14]
  refine Eq.trans (congrArg (shapeCast S1x10 (m ((c : Thread nD τ).loc main_arg14) : S10.Idx → EReal) shapeCasts_S10_S1x10) ?_)
    (shapeCast_a_1a_apply (m ((c : Thread nD τ).loc main_arg14) : S10.Idx → EReal) shapeCasts_S10_S1x10 (0 : Fin 1) j)
  funext a
  apply Fin.ext
  match a with
  | ⟨0, _⟩ => show win0_14.index t (0 : Fin 2) * 1 + 1 * 0 = 0; rw [e0]
  | ⟨1, _⟩ => show win0_14.index t (1 : Fin 2) * 10 + 1 * j.val = j.val; rw [e1]; omega

/-! ### What point `t` writes back -/

/-- The network's value does not change when each of its arguments is replaced by an equal one. -/
theorem net_congr {u u' : Fin 1024 → EReal} {w1 w1' : Fin 50 → Fin 1024 → EReal} {b1 b1' g1 g1' be1 be1' m1 m1' v1 v1' : Fin 50 → EReal}
    {w2 w2' : Fin 20 → Fin 50 → EReal} {b2 b2' g2 g2' be2 be2' m2 m2' v2 v2' : Fin 20 → EReal}
    {w5 w5' : Fin 10 → Fin 20 → EReal} {b5 b5' : Fin 10 → EReal} {q q' : Fin 10}
    (hu : u = u') (hw1 : w1 = w1') (hb1 : b1 = b1') (hg1 : g1 = g1') (hbe1 : be1 = be1') (hm1 : m1 = m1') (hv1 : v1 = v1')
    (hw2 : w2 = w2') (hb2 : b2 = b2') (hg2 : g2 = g2') (hbe2 : be2 = be2') (hm2 : m2 = m2') (hv2 : v2 = v2')
    (hw5 : w5 = w5') (hb5 : b5 = b5') (hq : q = q') :
    Cert.Bnn.net u w1 b1 g1 be1 m1 v1 w2 b2 g2 be2 m2 v2 w5 b5 q
      = Cert.Bnn.net u' w1' b1' g1' be1' m1' v1' w2' b2' g2' be2' m2' v2' w5' b5' q' := by
  subst hu hw1 hb1 hg1 hbe1 hm1 hv1 hw2 hb2 hg2 hbe2 hm2 hv2 hw5 hb5 hq
  rfl

/-- WHAT POINT `t` WRITES BACK is block `t` of `Cert.Bnn.G` of the argument arrays. -/
theorem flushed_eq (c : Dev nD) (t : Fin cfg0.N) :
    (dats m 0 c).flushed 15 t = ((cfg0.win 15).blk t).view.read (Elt Ideal) (GA m c) := by
  rw [Cert.KernelIdeal.Value.flushed15]
  unfold out0_15
  rw [View.canon_unit_zero hz]
  simp only [View.ld_unit_zero (S := S2048x1024) hz, View.ld_unit_zero (S := S50x1024) hz, View.ld_unit_zero (S := S1x50) hz,
    View.ld_unit_zero (S := S20x50) hz, View.ld_unit_zero (S := S1x20) hz, View.ld_unit_zero (S := S10x20) hz,
    View.ld_unit_zero (S := S1x10) hz]
  refine funext (fun (y : S2048x10.Idx) => ?_)
  obtain ⟨p, q, rfl⟩ : ∃ (p : Fin 2048) (q : Fin 10), y = ix2 p q := ⟨y 0, y 1, eq_ix2 y⟩
  obtain ⟨-, -, eo1, -⟩ := idx_rows t
  show k0_pay1 (k0_pay3 (k0_pay2 (iblk m c 0 t) (iblk m c 1 t) (iblk m c 2 t) (iblk m c 3 t) (iblk m c 5 t) (iblk m c 6 t) (iblk m c 4 t))
        (iblk m c 7 t) (iblk m c 8 t) (iblk m c 9 t) (iblk m c 11 t) (iblk m c 12 t) (iblk m c 10 t)) (iblk m c 13 t) (iblk m c 14 t) (ix2 p q)
      = GA m c (((cfg0.win 15).blk t).view.emb (ix2 p q))
  refine (tile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  refine net_congr
    (funext fun k => x_read m c t p k _ (by show win0_15.index t (0 : Fin 2) * 2048 + 1 * p.val = _; omega) rfl)
    (funext fun j => funext fun k => w1_read m c t j k)
    (funext fun j => p2_read m c t j) (funext fun j => p3_read m c t j) (funext fun j => p4_read m c t j)
    (funext fun j => p5_read m c t j) (funext fun j => p6_read m c t j)
    (funext fun j => funext fun k => w7_read m c t j k)
    (funext fun j => p8_read m c t j) (funext fun j => p9_read m c t j) (funext fun j => p10_read m c t j)
    (funext fun j => p11_read m c t j) (funext fun j => p12_read m c t j)
    (funext fun j => funext fun k => w13_read m c t j k)
    (funext fun j => p14_read m c t j)
    (Fin.ext (by show q.val = win0_15.index t (1 : Fin 2) * 10 + 1 * q.val; rw [eo1]; omega))

/-! ### The 32 blocks tile the result -/

/-- An index of the result is in point `t`'s block iff each coordinate is in the block's range on its axis. -/
theorem mem_blk (t : Fin cfg0.N) (i : S65536x10.Idx) :
    i ∈ ((cfg0.win 15).blk t).view.set
      ↔ ∀ a : Fin 2, win0_15.index t a * S2048x10.size a ≤ (i a).val
          ∧ (i a).val < win0_15.index t a * S2048x10.size a + S2048x10.size a := by
  show i ∈ ((View.whole main_v11).slice (win0_15.rect t)).set ↔ _
  rw [View.set_slice_whole, Rect.mem_set_unit]
  exact Iff.rfl

/-- Row `r` of the result is written by point `r / 2048`. -/
theorem cover (i : S65536x10.Idx) :
    ∃ t : Fin cfg0.N, (cfg0.win 15).flush t = true ∧ i ∈ ((cfg0.win 15).blk t).view.set := by
  have h0 : (i 0).val < 65536 := (i 0).isLt
  have h1 : (i 1).val < 10 := (i 1).isLt
  have hN : cfg0.N = 32 := N_0
  refine ⟨⟨(i 0).val / 2048, by rw [hN]; omega⟩, flush0_15 _, ?_⟩
  obtain ⟨-, -, eo1, eo0⟩ := idx_rows ⟨(i 0).val / 2048, by rw [hN]; omega⟩
  rw [mem_blk]
  intro a
  match a with
  | ⟨0, _⟩ =>
    show win0_15.index ⟨(i 0).val / 2048, _⟩ (0 : Fin 2) * 2048 ≤ (i 0).val
      ∧ (i 0).val < win0_15.index ⟨(i 0).val / 2048, _⟩ (0 : Fin 2) * 2048 + 2048
    rw [eo0]
    show (i 0).val / 2048 * 2048 ≤ (i 0).val ∧ (i 0).val < (i 0).val / 2048 * 2048 + 2048
    omega
  | ⟨1, _⟩ =>
    show win0_15.index ⟨(i 0).val / 2048, _⟩ (1 : Fin 2) * 10 ≤ (i 1).val
      ∧ (i 1).val < win0_15.index ⟨(i 0).val / 2048, _⟩ (1 : Fin 2) * 10 + 10
    rw [eo1]
    omega

/-- THE RESULT ARRAY after the run is `Cert.Bnn.G` of the argument arrays. -/
theorem final (c : Dev nD) : (dats m 0 c).arrAt 15 cfg0.N = GA m c :=
  (dats m 0 c).arrAt_eq_of_cover 15 (GA m c) (fun t _ => flushed_eq m c t) cover

/-- The kernel's run, read: every weakly fair execution terminates with the result array at `Cert.Bnn.G` of the
    arguments, the arguments unchanged. -/
theorem run : θ_run defs (onTc (τ := τ) (main (F := Ideal))) ⟨m, fun _ => 0, ρ⟩ fun r => ∀ c : Dev nD,
      r.2.mem ((c : Thread nD τ).loc main_v11) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩)
    (Cert.KernelIdeal.Value.run_blocks m ρ)

end Cert.KernelIdeal.Final

end
-- ==== Proof.lean ====
/-
  The certificate of a binarized three-layer perceptron with batch normalisation, sign activations and a closing
  log-softmax, as a streaming kernel over row tiles against its plain array reference: the two idealized programs
  compute ONE function of the argument arrays over the extended reals, `Cert.Bnn.G` (Proof/Spec.lean).

  Per input row `u`: a binarized linear unit is `Σ_k u_k · sgn w_k + b` (`sgn` is +1 where `0 ≤ w`, −1 elsewhere);
  a hidden unit is the sign of `g · (h − μ) · (σ² + ε)^(−1/2) + β`; the ten outputs are the log-softmax
  `(z_q − max z) − log Σ_k exp (z_k − max z)` of the output layer's logits. The two programs apply the same scalar
  operations in the same order, so no algebraic law beyond re-indexing is used and the finiteness of the inputs is
  never opened:
    * the kernel's matrix products contract both operands along their second axis into a zero accumulator, the
      reference multiplies by the transposed sign matrix: the same sums `Σ_k x(r, k) · sgn w(j, k)`;
    * a change of float format is the identity on extended reals, and the bf16 and f32 spellings of ±1 are the same
      two numbers (Proof/Consts.lean);
    * the reference bounds its row maximum (folded from −∞) below by −∞ once more, which changes nothing, and adds
      its row sum to the initial value 0;
    * the kernel works on 32 tiles of 2048 rows that tile the `[65536, 10]` result (Proof/KFinal.lean), each
      parameter window holding its whole array at every grid point.
  Kernel side: Proof/KBody.lean (the body's three stretches at an entry), Proof/KFinal.lean (blocks to array, the run).
  Reference side: Proof/RefValue.lean and Proof/RefOut.lean, over the reference's run and its stages read at an index
  (Proof/RefRun.lean and Proof/RefRead.lean). The three frames are the generated ones; the idealization's ledger is
  empty, so `preserves` is `True`.
-/
import proofs.«114342_j47201690583462_1_alg».proof.Defs
import proofs.«114342_j47201690583462_1_alg».proof.Proof.Gen.Kernel
import proofs.«114342_j47201690583462_1_alg».proof.Proof.Gen.Kernel.Skeleton
import proofs.«114342_j47201690583462_1_alg».proof.Proof.Gen.Kernel.Launch
import proofs.«114342_j47201690583462_1_alg».proof.Proof.Gen.Kernel.Points
import proofs.«114342_j47201690583462_1_alg».proof.Proof.Gen.Kernel.Frame
import proofs.«114342_j47201690583462_1_alg».proof.Proof.Gen.KernelIdeal
import proofs.«114342_j47201690583462_1_alg».proof.Proof.Gen.KernelIdeal.Skeleton
import proofs.«114342_j47201690583462_1_alg».proof.Proof.Gen.KernelIdeal.Launch
import proofs.«114342_j47201690583462_1_alg».proof.Proof.Gen.KernelIdeal.Points
import proofs.«114342_j47201690583462_1_alg».proof.Proof.Gen.KernelIdeal.Frame
import proofs.«114342_j47201690583462_1_alg».proof.Proof.Gen.ReferenceIdeal
import proofs.«114342_j47201690583462_1_alg».proof.Proof.Gen.Pre_finite_inputs
import proofs.«114342_j47201690583462_1_alg».proof.Proof.Gen.KernelIdeal.Value
import proofs.«114342_j47201690583462_1_alg».proof.Proof.RefRun
import proofs.«114342_j47201690583462_1_alg».proof.Proof.RefRead
import proofs.«114342_j47201690583462_1_alg».proof.Proof.RefOut
import proofs.«114342_j47201690583462_1_alg».proof.Proof.KFinal
import Idealize.ShloMosaic.Adequacy
import Idealize.ShloMosaic.Init

noncomputable section

namespace Cert.Proof

open Idealize.ShloMosaic Idealize.SL.Sem Cert.Kernel

/-- The word-level kernel runs, faults nowhere and leaves its arguments unchanged: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing: its ledger is empty. -/
theorem preserves : Cert.preserves_Kernel_KernelIdeal := trivial

/-- From memories that agree on the arguments, the idealized kernel ends with its result array at `Cert.Bnn.G` of the
    arguments (the kernel's run) and so does the idealized reference (its run, its last stage read as `Cert.Bnn.G`). -/
theorem algebraic : Cert.algebraic_KernelIdeal_ReferenceIdeal := by
  intro m ρ m' ρ' _ hagree
  refine ⟨fun c => Cert.KernelIdeal.Final.GA m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, Cert.ReferenceIdeal.RefValue.result_eq]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
